-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x160 : Shape := ⟨2, ![100000, 160]⟩
abbrev S100000 : Shape := ⟨1, ![100000]⟩
abbrev S32x24 : Shape := ⟨2, ![32, 24]⟩
abbrev S24 : Shape := ⟨1, ![24]⟩
abbrev S131x96 : Shape := ⟨2, ![131, 96]⟩
abbrev S96 : Shape := ⟨1, ![96]⟩
abbrev S96x64 : Shape := ⟨2, ![96, 64]⟩
abbrev S64 : Shape := ⟨1, ![64]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x160 : S_.BroadcastsInDim S100000x160 (![] : Fin 0 → Fin S100000x160.rank)
  reducesTo_S100000x160_S_d0_1 : S100000x160.ReducesTo [0, 1] S_
  bcast_S_S32x24 : S_.BroadcastsInDim S32x24 (![] : Fin 0 → Fin S32x24.rank)
  reducesTo_S32x24_S_d0_1 : S32x24.ReducesTo [0, 1] S_
  bcast_S_S24 : S_.BroadcastsInDim S24 (![] : Fin 0 → Fin S24.rank)
  reducesTo_S24_S_d0 : S24.ReducesTo [0] S_
  bcast_S_S131x96 : S_.BroadcastsInDim S131x96 (![] : Fin 0 → Fin S131x96.rank)
  reducesTo_S131x96_S_d0_1 : S131x96.ReducesTo [0, 1] S_
  bcast_S_S96 : S_.BroadcastsInDim S96 (![] : Fin 0 → Fin S96.rank)
  reducesTo_S96_S_d0 : S96.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S131x96 .f32) (main_arg6 : FVec F S96 .f32) (main_arg7 : FVec F S96x64 .f32) (main_arg8 : FVec F S64 .f32) (main_v13 : IVec S_ 1) (main_v16 : IVec S24 1) : IVec S_ 1 :=
  let main_c_5 : IVec S_ 1 := constantI S_ 1 1#1
  let main_v17 : IVec S_ 1 := (fun x v => Host.reduce IntOp.andi x v reducesTo_S24_S_d0 h_S_) main_v16 main_c_5
  let main_v18 : IVec S_ 1 := andi main_v13 main_v17
  let main_v19 : FVec F S131x96 .f32 := Host.absf main_arg5
  let main_cst_6 : FVec F S_ .f32 := constant S_ .f32 0x7F800000#32
  let main_v20 : FVec F S131x96 .f32 := broadcastInDim S131x96 ![] bcast_S_S131x96 main_cst_6
  let main_v21 : IVec S131x96 1 := cmpf .olt main_v19 main_v20
  let main_c_7 : IVec S_ 1 := constantI S_ 1 1#1
  let main_v22 : IVec S_ 1 := (fun x v => Host.reduce IntOp.andi x v reducesTo_S131x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x64 .f32 := Host.absf main_arg7
  let main_cst_10 : FVec F S_ .f32 := constant S_ .f32 0x7F800000#32
  let main_v30 : FVec F S96x64 .f32 := broadcastInDim S96x64 ![] bcast_S_S96x64 main_cst_10
  let main_v31 : IVec S96x64 1 := cmpf .olt main_v29 main_v30
  let main_c_11 : IVec S_ 1 := constantI S_ 1 1#1
  let main_v32 : IVec S_ 1 := (fun x v => Host.reduce IntOp.andi x v reducesTo_S96x64_S_d0_1 h_S_) main_v31 main_c_11
  let main_v33 : IVec S_ 1 := andi main_v28 main_v32
  fn_part2 (F := F) main_arg8 main_v33

def fn {F : FTy → Type} [FloatOps F] (main_arg0 : FVec F S100000x3 .f32) (main_arg1 : FVec F S100000x160 .f32) (main_arg2 : IVec S100000 32) (main_arg3 : FVec F S32x24 .f32) (main_arg4 : FVec F S24 .f32) (main_arg5 : FVec F S131x96 .f32) (main_arg6 : FVec F S96 .f32) (main_arg7 : FVec F S96x64 .f32) (main_arg8 : FVec F S64 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x160 .f32 := Host.absf main_arg1
  let main_cst_0 : FVec F S_ .f32 := constant S_ .f32 0x7F800000#32
  let main_v5 : FVec F S100000x160 .f32 := broadcastInDim S100000x160 ![] bcast_S_S100000x160 main_cst_0
  let main_v6 : IVec S100000x160 1 := cmpf .olt main_v4 main_v5
  let main_c_1 : IVec S_ 1 := constantI S_ 1 1#1
  let main_v7 : IVec S_ 1 := (fun x v => Host.reduce IntOp.andi x v reducesTo_S100000x160_S_d0_1 h_S_) main_v6 main_c_1
  let main_v8 : IVec S_ 1 := andi main_v3 main_v7
  let main_v9 : FVec F S32x24 .f32 := Host.absf main_arg3
  let main_cst_2 : FVec F S_ .f32 := constant S_ .f32 0x7F800000#32
  let main_v10 : FVec F S32x24 .f32 := broadcastInDim S32x24 ![] bcast_S_S32x24 main_cst_2
  let main_v11 : IVec S32x24 1 := cmpf .olt main_v9 main_v10
  let main_c_3 : IVec S_ 1 := constantI S_ 1 1#1
  let main_v12 : IVec S_ 1 := (fun x v => Host.reduce IntOp.andi x v reducesTo_S32x24_S_d0_1 h_S_) main_v11 main_c_3
  let main_v13 : IVec S_ 1 := andi main_v8 main_v12
  let main_v14 : FVec F S24 .f32 := Host.absf main_arg4
  let main_cst_4 : FVec F S_ .f32 := constant S_ .f32 0x7F800000#32
  let main_v15 : FVec F S24 .f32 := broadcastInDim S24 ![] bcast_S_S24 main_cst_4
  let main_v16 : IVec S24 1 := cmpf .olt main_v14 main_v15
  fn_part1 (F := F) main_arg5 main_arg6 main_arg7 main_arg8 main_v13 main_v16
-- ==== Kernel.lean ====
abbrev S100000x3 : Shape := ⟨2, ![100000, 3]⟩
abbrev S100000x160 : Shape := ⟨2, ![100000, 160]⟩
abbrev S100000 : Shape := ⟨1, ![100000]⟩
abbrev S32x24 : Shape := ⟨2, ![32, 24]⟩
abbrev S24 : Shape := ⟨1, ![24]⟩
abbrev S131x96 : Shape := ⟨2, ![131, 96]⟩
abbrev S96 : Shape := ⟨1, ![96]⟩
abbrev S96x64 : Shape := ⟨2, ![96, 64]⟩
abbrev S64 : Shape := ⟨1, ![64]⟩
abbrev S3x96 : Shape := ⟨2, ![3, 96]⟩
abbrev S128x96 : Shape := ⟨2, ![128, 96]⟩
abbrev S100000x8x3 : Shape := ⟨3, ![100000, 8, 3]⟩
abbrev S100000x8x64 : Shape := ⟨3, ![100000, 8, 64]⟩
abbrev S2000x160 : Shape := ⟨2, ![2000, 160]⟩
abbrev S2000x3 : Shape := ⟨2, ![2000, 3]⟩
abbrev S2000x8x3 : Shape := ⟨3, ![2000, 8, 3]⟩
abbrev S2000x8x64 : Shape := ⟨3, ![2000, 8, 64]⟩
abbrev S2000x32 : Shape := ⟨2, ![2000, 32]⟩
abbrev S2000x128 : Shape := ⟨2, ![2000, 128]⟩
abbrev S2000x24 : Shape := ⟨2, ![2000, 24]⟩
abbrev S1x24 : Shape := ⟨2, ![1, 24]⟩
abbrev S2000x96 : Shape := ⟨2, ![2000, 96]⟩
abbrev S2000x1x3 : Shape := ⟨3, ![2000, 1, 3]⟩
abbrev S1x96 : Shape := ⟨2, ![1, 96]⟩
abbrev S2000x64 : Shape := ⟨2, ![2000, 64]⟩
abbrev S1x64 : Shape := ⟨2, ![1, 64]⟩
abbrev S2000x1x64 : Shape := ⟨3, ![2000, 1, 64]⟩
abbrev S800000x3 : Shape := ⟨2, ![800000, 3]⟩
abbrev S800000x64 : Shape := ⟨2, ![800000, 64]⟩
abbrev S100000x8 : Shape := ⟨2, ![100000, 8]⟩
abbrev S800000 : Shape := ⟨1, ![800000]⟩

abbrev nBuf : Space → Nat
  | .hbm => 17
  | .vmem => 15
  | .smem => 0
  | _ => 0

abbrev bufTy : (tb : Table) → Fin (tcTables nBuf tb) → BufTy
  | .hbm, ⟨0, _⟩ => ⟨S100000x3, .f32⟩
  | .hbm, ⟨1, _⟩ => ⟨S100000x160, .f32⟩
  | .hbm, ⟨2, _⟩ => ⟨S100000, .i32⟩
  | .hbm, ⟨3, _⟩ => ⟨S32x24, .f32⟩
  | .hbm, ⟨4, _⟩ => ⟨S24, .f32⟩
  | .hbm, ⟨5, _⟩ => ⟨S131x96, .f32⟩
  | .hbm, ⟨6, _⟩ => ⟨S96, .f32⟩
  | .hbm, ⟨7, _⟩ => ⟨S96x64, .f32⟩
  | .hbm, ⟨8, _⟩ => ⟨S64, .f32⟩
  | .hbm, ⟨9, _⟩ => ⟨S3x96, .f32⟩
  | .hbm, ⟨10, _⟩ => ⟨S128x96, .f32⟩
  | .hbm, ⟨11, _⟩ => ⟨S100000x8x3, .f32⟩
  | .hbm, ⟨12, _⟩ => ⟨S100000x8x64, .f32⟩
  | .hbm, ⟨13, _⟩ => ⟨S800000x3, .f32⟩
  | .hbm, ⟨14, _⟩ => ⟨S800000x64, .f32⟩
  | .hbm, ⟨15, _⟩ => ⟨S100000x8, .i32⟩
  | .hbm, ⟨16, _⟩ => ⟨S800000, .i32⟩
  | .local _ .vmem, ⟨0, _⟩ => ⟨S2000x160, .f32⟩
  | .local _ .vmem, ⟨1, _⟩ => ⟨S2000x160, .f32⟩
  | .local _ .vmem, ⟨2, _⟩ => ⟨S2000x3, .f32⟩
  | .local _ .vmem, ⟨3, _⟩ => ⟨S2000x3, .f32⟩
  | .local _ .vmem, ⟨4, _⟩ => ⟨S32x24, .f32⟩
  | .local _ .vmem, ⟨5, _⟩ => ⟨S24, .f32⟩
  | .local _ .vmem, ⟨6, _⟩ => ⟨S3x96, .f32⟩
  | .local _ .vmem, ⟨7, _⟩ => ⟨S128x96, .f32⟩
  | .local _ .vmem, ⟨8, _⟩ => ⟨S96, .f32⟩
  | .local _ .vmem, ⟨9, _⟩ => ⟨S96x64, .f32⟩
  | .local _ .vmem, ⟨10, _⟩ => ⟨S64, .f32⟩
  | .local _ .vmem, ⟨11, _⟩ => ⟨S2000x8x3, .f32⟩
  | .local _ .vmem, ⟨12, _⟩ => ⟨S2000x8x3, .f32⟩
  | .local _ .vmem, ⟨13, _⟩ => ⟨S2000x8x64, .f32⟩
  | .local _ .vmem, ⟨14, _⟩ => ⟨S2000x8x64, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x8x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S131x96_S3x96_0_0 : S131x96.Slices ![0, 0] S3x96
  slices_S131x96_S128x96_3_0 : S131x96.Slices ![3, 0] S128x96
  inb_S2000x160_S2000x160_0_0 : ∀ a, (![0, 0] : Fin 2 → Nat) a + S2000x160.size a ≤ S2000x160.size a
  h_S2000x160 : 0 < S2000x160.numel
  inb_S2000x3_S2000x3_0_0 : ∀ a, (![0, 0] : Fin 2 → Nat) a + S2000x3.size a ≤ S2000x3.size a
  h_S2000x3 : 0 < S2000x3.numel
  slices_S2000x160_o0_0_S2000x32 : S2000x160.Slices ![0, 0] S2000x32
  slices_S2000x160_o0_32_S2000x128 : S2000x160.Slices ![0, 32] S2000x128
  inb_S32x24_S32x24_0_0 : ∀ a, (![0, 0] : Fin 2 → Nat) a + S32x24.size a ≤ S32x24.size a
  h_S32x24 : 0 < S32x24.numel
  inb_S24_S24_0 : ∀ a, (![0] : Fin 1 → Nat) a + S24.size a ≤ S24.size a
  h_S24 : 0 < S24.numel
  shapeCasts_S24_S1x24 : S24.ShapeCasts S1x24
  broadcasts_S1x24_S2000x24 : S1x24.Broadcasts S2000x24
  inb_S128x96_S128x96_0_0 : ∀ a, (![0, 0] : Fin 2 → Nat) a + S128x96.size a ≤ S128x96.size a
  h_S128x96 : 0 < S128x96.numel
  shapeCasts_S128x96_S128x96 : S128x96.ShapeCasts S128x96
  inb_S96_S96_0 : ∀ a, (![0] : Fin 1 → Nat) a + S96.size a ≤ S96.size a
  h_S96 : 0 < S96.numel
  inb_S3x96_S3x96_0_0 : ∀ a, (![0, 0] : Fin 2 → Nat) a + S3x96.size a ≤ S3x96.size a
  h_S3x96 : 0 < S3x96.numel
  shapeCasts_S3x96_S3x96 : S3x96.ShapeCasts S3x96
  inb_S96x64_S96x64_0_0 : ∀ a, (![0, 0] : Fin 2 → Nat) a + S96x64.size a ≤ S96x64.size a
  h_S96x64 : 0 < S96x64.numel
  inb_S64_S64_0 : ∀ a, (![0] : Fin 1 → Nat) a + S64.size a ≤ S64.size a
  h_S64 : 0 < S64.numel
  slices_S2000x24_o0_0_S2000x3 : S2000x24.Slices ![0, 0] S2000x3
  inb_S2000x8x3_S2000x1x3_0_0_0 : ∀ a, (![0, 0, 0] : Fin 3 → Nat) a + S2000x1x3.size a ≤ S2000x8x3.size a
  h_S2000x1x3 : 0 < S2000x1x3.numel
  shapeCasts_S2000x1x3_S2000x3 : S2000x1x3.ShapeCasts S2000x3
  shapeCasts_S2000x3_S2000x1x3 : S2000x3.ShapeCasts S2000x1x3
  shapeCasts_S96_S1x96 : S96.ShapeCasts S1x96
  broadcasts_S1x96_S2000x96 : S1x96.Broadcasts S2000x96
  shapeCasts_S64_S1x64 : S64.ShapeCasts S1x64
  broadcasts_S1x64_S2000x64 : S1x64.Broadcasts S2000x64
  inb_S2000x8x64_S2000x1x64_0_0_0 : ∀ a, (![0, 0, 0] : Fin 3 → Nat) a + S2000x1x64.size a ≤ S2000x8x64.size a
  h_S2000x1x64 : 0 < S2000x1x64.numel
  shapeCasts_S2000x1x64_S2000x64 : S2000x1x64.ShapeCasts S2000x64
  shapeCasts_S2000x64_S2000x1x64 : S2000x64.ShapeCasts S2000x1x64
  slices_S2000x24_o0_3_S2000x3 : S2000x24.Slices ![0, 3] S2000x3
  inb_S2000x8x3_S2000x1x3_0_1_0 : ∀ a, (![0, 1, 0] : Fin 3 → Nat) a + S2000x1x3.size a ≤ S2000x8x3.size a
  inb_S2000x8x64_S2000x1x64_0_1_0 : ∀ a, (![0, 1, 0] : Fin 3 → Nat) a + S2000x1x64.size a ≤ S2000x8x64.size a
  slices_S2000x24_o0_6_S2000x3 : S2000x24.Slices ![0, 6] S2000x3
  inb_S2000x8x3_S2000x1x3_0_2_0 : ∀ a, (![0, 2, 0] : Fin 3 → Nat) a + S2000x1x3.size a ≤ S2000x8x3.size a
  inb_S2000x8x64_S2000x1x64_0_2_0 : ∀ a, (![0, 2, 0] : Fin 3 → Nat) a + S2000x1x64.size a ≤ S2000x8x64.size a
  slices_S2000x24_o0_9_S2000x3 : S2000x24.Slices ![0, 9] S2000x3
  inb_S2000x8x3_S2000x1x3_0_3_0 : ∀ a, (![0, 3, 0] : Fin 3 → Nat) a + S2000x1x3.size a ≤ S2000x8x3.size a
  inb_S2000x8x64_S2000x1x64_0_3_0 : ∀ a, (![0, 3, 0] : Fin 3 → Nat) a + S2000x1x64.size a ≤ S2000x8x64.size a
  slices_S2000x24_o0_12_S2000x3 : S2000x24.Slices ![0, 12] S2000x3
  inb_S2000x8x3_S2000x1x3_0_4_0 : ∀ a, (![0, 4, 0] : Fin 3 → Nat) a + S2000x1x3.size a ≤ S2000x8x3.size a
  inb_S2000x8x64_S2000x1x64_0_4_0 : ∀ a, (![0, 4, 0] : Fin 3 → Nat) a + S2000x1x64.size a ≤ S2000x8x64.size a
  slices_S2000x24_o0_15_S2000x3 : S2000x24.Slices ![0, 15] S2000x3
  inb_S2000x8x3_S2000x1x3_0_5_0 : ∀ a, (![0, 5, 0] : Fin 3 → Nat) a + S2000x1x3.size a ≤ S2000x8x3.size a
  inb_S2000x8x64_S2000x1x64_0_5_0 : ∀ a, (![0, 5, 0] : Fin 3 → Nat) a + S2000x1x64.size a ≤ S2000x8x64.size a
  slices_S2000x24_o0_18_S2000x3 : S2000x24.Slices ![0, 18] S2000x3
  inb_S2000x8x3_S2000x1x3_0_6_0 : ∀ a, (![0, 6, 0] : Fin 3 → Nat) a + S2000x1x3.size a ≤ S2000x8x3.size a
  inb_S2000x8x64_S2000x1x64_0_6_0 : ∀ a, (![0, 6, 0] : Fin 3 → Nat) a + S2000x1x64.size a ≤ S2000x8x64.size a
  slices_S2000x24_o0_21_S2000x3 : S2000x24.Slices ![0, 21] S2000x3
  inb_S2000x8x3_S2000x1x3_0_7_0 : ∀ a, (![0, 7, 0] : Fin 3 → Nat) a + S2000x1x3.size a ≤ S2000x8x3.size a
  inb_S2000x8x64_S2000x1x64_0_7_0 : ∀ a, (![0, 7, 0] : Fin 3 → Nat) a + S2000x1x64.size a ≤ S2000x8x64.size a
  shapeCasts_S100000x8x3_S800000x3 : S100000x8x3.ShapeCasts S800000x3
  shapeCasts_S100000x8x64_S800000x64 : S100000x8x64.ShapeCasts S800000x64
  bcast_S100000_S100000x8_0 : S100000.BroadcastsInDim S100000x8 (![0] : Fin 1 → Fin S100000x8.rank)
  shapeCasts_S100000x8_S800000 : S100000x8.ShapeCasts S800000
  dot_S2000x32_S32x24_S2000x24_1_0_0_1_n_n_wf : DotDims.WF S2000x32 S32x24 S2000x24 [1] [0] [0] [1] [] []
  dot_S2000x128_S128x96_S2000x96_1_0_0_1_n_n_wf : DotDims.WF S2000x128 S128x96 S2000x96 [1] [0] [0] [1] [] []
  dot_S2000x3_S3x96_S2000x96_1_0_0_1_n_n_wf : DotDims.WF S2000x3 S3x96 S2000x96 [1] [0] [0] [1] [] []
  dot_S2000x96_S96x64_S2000x64_1_0_0_1_n_n_wf : DotDims.WF S2000x96 S96x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x160.size a ≤ S100000x160.size a
  hwx0_0 : ∀ i : grid0.Coords, EltTy.bits .f32 = 32 ∨ (Rect.block (s := S100000x160) S2000x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S100000x3.size a
  hwx0_1 : ∀ i : grid0.Coords, EltTy.bits .f32 = 32 ∨ (Rect.block (s := S100000x3) S2000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x24.size a ≤ S32x24.size a
  hwx0_2 : ∀ i : grid0.Coords, EltTy.bits .f32 = 32 ∨ (Rect.block (s := S32x24) S32x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24.size a ≤ S24.size a
  hwx0_3 : ∀ i : grid0.Coords, EltTy.bits .f32 = 32 ∨ (Rect.block (s := S24) S24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x96.size a ≤ S3x96.size a
  hwx0_4 : ∀ i : grid0.Coords, EltTy.bits .f32 = 32 ∨ (Rect.block (s := S3x96) S3x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x96.size a ≤ S128x96.size a
  hwx0_5 : ∀ i : grid0.Coords, EltTy.bits .f32 = 32 ∨ (Rect.block (s := S128x96) S128x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96.size a ≤ S96.size a
  hwx0_6 : ∀ i : grid0.Coords, EltTy.bits .f32 = 32 ∨ (Rect.block (s := S96) S96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96x64.size a ≤ S96x64.size a
  hwx0_7 : ∀ i : grid0.Coords, EltTy.bits .f32 = 32 ∨ (Rect.block (s := S96x64) S96x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x8x3.size a ≤ S100000x8x3.size a
  hwx0_9 : ∀ i : grid0.Coords, EltTy.bits .f32 = 32 ∨ (Rect.block (s := S100000x8x3) S2000x8x3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x8x64.size a ≤ S100000x8x64.size a
  hwx0_10 : ∀ i : grid0.Coords, EltTy.bits .f32 = 32 ∨ (Rect.block (s := S100000x8x64) S2000x8x64.size (cc0_transform_10 i) (hinb0_10 i)).WholeWords (EltTy.packing .f32)

variable [Facts₀]

def dot_S2000x32_S32x24_S2000x24_1_0_0_1_n_n : DotDims S2000x32 S32x24 S2000x24 where
  lhsContracting := [1]
  rhsContracting := [0]
  lhsNonContracting := [0]
  rhsNonContracting := [1]
  lhsBatch := []
  rhsBatch := []
  wf := dot_S2000x32_S32x24_S2000x24_1_0_0_1_n_n_wf
def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def dot_S2000x3_S3x96_S2000x96_1_0_0_1_n_n : DotDims S2000x3 S3x96 S2000x96 where
  lhsContracting := [1]
  rhsContracting := [0]
  lhsNonContracting := [0]
  rhsNonContracting := [1]
  lhsBatch := []
  rhsBatch := []
  wf := dot_S2000x3_S3x96_S2000x96_1_0_0_1_n_n_wf
def dot_S2000x96_S96x64_S2000x64_1_0_0_1_n_n : DotDims S2000x96 S96x64 S2000x64 where
  lhsContracting := [1]
  rhsContracting := [0]
  lhsNonContracting := [0]
  rhsNonContracting := [1]
  lhsBatch := []
  rhsBatch := []
  wf := dot_S2000x96_S96x64_S2000x64_1_0_0_1_n_n_wf

abbrev win0_0 : Pipeline.Window sig grid0 :=
  Pipeline.Window.ofSpec (Memref.whole main_arg1) S2000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S3x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S96x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S2000x8x3.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S2000x8x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000x160 : Shape := ⟨2, ![100000, 160]⟩
abbrev S100000 : Shape := ⟨1, ![100000]⟩
abbrev S32x24 : Shape := ⟨2, ![32, 24]⟩
abbrev S24 : Shape := ⟨1, ![24]⟩
abbrev S131x96 : Shape := ⟨2, ![131, 96]⟩
abbrev S96 : Shape := ⟨1, ![96]⟩
abbrev S96x64 : Shape := ⟨2, ![96, 64]⟩
abbrev S64 : Shape := ⟨1, ![64]⟩
abbrev S100000x32 : Shape := ⟨2, ![100000, 32]⟩
abbrev S100000x128 : Shape := ⟨2, ![100000, 128]⟩
abbrev S100000x24 : Shape := ⟨2, ![100000, 24]⟩
abbrev S1x24 : Shape := ⟨2, ![1, 24]⟩
abbrev S800000x3 : Shape := ⟨2, ![800000, 3]⟩
abbrev S100000x8 : Shape := ⟨2, ![100000, 8]⟩
abbrev S800000 : Shape := ⟨1, ![800000]⟩
abbrev S100000x8x128 : Shape := ⟨3, ![100000, 8, 128]⟩
abbrev S800000x128 : Shape := ⟨2, ![800000, 128]⟩
abbrev S800000x131 : Shape := ⟨2, ![800000, 131]⟩
abbrev S800000x96 : Shape := ⟨2, ![800000, 96]⟩
abbrev S1x96 : Shape := ⟨2, ![1, 96]⟩
abbrev S_ : Shape := ⟨0, ![]⟩
abbrev S800000x64 : Shape := ⟨2, ![800000, 64]⟩
abbrev S1x64 : Shape := ⟨2, ![1, 64]⟩
abbrev S100000x8x3 : Shape := ⟨3, ![100000, 8, 3]⟩

abbrev nBuf : Space → Nat
  | .hbm => 41
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x160, .f32⟩
  | .hbm, ⟨2, _⟩ => ⟨S100000, .i32⟩
  | .hbm, ⟨3, _⟩ => ⟨S32x24, .f32⟩
  | .hbm, ⟨4, _⟩ => ⟨S24, .f32⟩
  | .hbm, ⟨5, _⟩ => ⟨S131x96, .f32⟩
  | .hbm, ⟨6, _⟩ => ⟨S96, .f32⟩
  | .hbm, ⟨7, _⟩ => ⟨S96x64, .f32⟩
  | .hbm, ⟨8, _⟩ => ⟨S64, .f32⟩
  | .hbm, ⟨9, _⟩ => ⟨S100000x32, .f32⟩
  | .hbm, ⟨10, _⟩ => ⟨S100000x128, .f32⟩
  | .hbm, ⟨11, _⟩ => ⟨S100000x24, .f32⟩
  | .hbm, ⟨12, _⟩ => ⟨S1x24, .f32⟩
  | .hbm, ⟨13, _⟩ => ⟨S100000x24, .f32⟩
  | .hbm, ⟨14, _⟩ => ⟨S100000x24, .f32⟩
  | .hbm, ⟨15, _⟩ => ⟨S800000x3, .f32⟩
  | .hbm, ⟨16, _⟩ => ⟨S100000x8, .i32⟩
  | .hbm, ⟨17, _⟩ => ⟨S800000, .i32⟩
  | .hbm, ⟨18, _⟩ => ⟨S100000x8x128, .f32⟩
  | .hbm, ⟨19, _⟩ => ⟨S800000x128, .f32⟩
  | .hbm, ⟨20, _⟩ => ⟨S800000x131, .f32⟩
  | .hbm, ⟨21, _⟩ => ⟨S800000x96, .f32⟩
  | .hbm, ⟨22, _⟩ => ⟨S1x96, .f32⟩
  | .hbm, ⟨23, _⟩ => ⟨S800000x96, .f32⟩
  | .hbm, ⟨24, _⟩ => ⟨S800000x96, .f32⟩
  | .hbm, ⟨25, _⟩ => ⟨S_, .f32⟩
  | .hbm, ⟨26, _⟩ => ⟨S800000x96, .f32⟩
  | .hbm, ⟨27, _⟩ => ⟨S800000x96, .f32⟩
  | .hbm, ⟨28, _⟩ => ⟨S800000x64, .f32⟩
  | .hbm, ⟨29, _⟩ => ⟨S1x64, .f32⟩
  | .hbm, ⟨30, _⟩ => ⟨S800000x64, .f32⟩
  | .hbm, ⟨31, _⟩ => ⟨S800000x64, .f32⟩
  | .hbm, ⟨32, _⟩ => ⟨S_, .f32⟩
  | .hbm, ⟨33, _⟩ => ⟨S800000x64, .f32⟩
  | .hbm, ⟨34, _⟩ => ⟨S800000x64, .f32⟩
  | .hbm, ⟨35, _⟩ => ⟨S100000x8x3, .f32⟩
  | .hbm, ⟨36, _⟩ => ⟨S800000x3, .f32⟩
  | .hbm, ⟨37, _⟩ => ⟨S_, .f32⟩
  | .hbm, ⟨38, _⟩ => ⟨S800000x3, .f32⟩
  | .hbm, ⟨39, _⟩ => ⟨S800000x3, .f32⟩
  | .hbm, ⟨40, _⟩ => ⟨S800000x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_cst : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  slices_S100000x160_S100000x32_0_0 : S100000x160.Slices ![0, 0] S100000x32
  slices_S100000x160_S100000x128_0_32 : S100000x160.Slices ![0, 32] S100000x128
  bcast_S24_S1x24_1 : S24.BroadcastsInDim S1x24 (![1] : Fin 1 → Fin S1x24.rank)
  bcast_S1x24_S100000x24_0_1 : S1x24.BroadcastsInDim S100000x24 (![0, 1] : Fin 2 → Fin S100000x24.rank)
  shapeCasts_S100000x24_S800000x3 : S100000x24.ShapeCasts S800000x3
  bcast_S100000_S100000x8_0 : S100000.BroadcastsInDim S100000x8 (![0] : Fin 1 → Fin S100000x8.rank)
  shapeCasts_S100000x8_S800000 : S100000x8.ShapeCasts S800000
  bcast_S100000x128_S100000x8x128_0_2 : S100000x128.BroadcastsInDim S100000x8x128 (![0, 2] : Fin 2 → Fin S100000x8x128.rank)
  shapeCasts_S100000x8x128_S800000x128 : S100000x8x128.ShapeCasts S800000x128
  concatenates_S800000x3_S800000x128_S800000x131_d1 : Shape.Concatenates [S800000x3, S800000x128] S800000x131 1
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S100000x3_S100000x8x3_0_2 : S100000x3.BroadcastsInDim S100000x8x3 (![0, 2] : Fin 2 → Fin S100000x8x3.rank)
  shapeCasts_S100000x8x3_S800000x3 : S100000x8x3.ShapeCasts S800000x3
  bcast_S_S800000x3 : S_.BroadcastsInDim S800000x3 (![] : Fin 0 → Fin S800000x3.rank)
  dot_S100000x32_S32x24_S100000x24_1_0_0_1_n_n_wf : DotDims.WF S100000x32 S32x24 S100000x24 [1] [0] [0] [1] [] []
  dot_S800000x131_S131x96_S800000x96_1_0_0_1_n_n_wf : DotDims.WF S800000x131 S131x96 S800000x96 [1] [0] [0] [1] [] []
  dot_S800000x96_S96x64_S800000x64_1_0_0_1_n_n_wf : DotDims.WF S800000x96 S96x64 S800000x64 [1] [0] [0] [1] [] []

variable [Facts₀]

def dot_S100000x32_S32x24_S100000x24_1_0_0_1_n_n : DotDims S100000x32 S32x24 S100000x24 where
  lhsContracting := [1]
  rhsContracting := [0]
  lhsNonContracting := [0]
  rhsNonContracting := [1]
  lhsBatch := []
  rhsBatch := []
  wf := dot_S100000x32_S32x24_S100000x24_1_0_0_1_n_n_wf
def dot_S800000x131_S131x96_S800000x96_1_0_0_1_n_n : DotDims S800000x131 S131x96 S800000x96 where
  lhsContracting := [1]
  rhsContracting := [0]
  lhsNonContracting := [0]
  rhsNonContracting := [1]
  lhsBatch := []
  rhsBatch := []
  wf := dot_S800000x131_S131x96_S800000x96_1_0_0_1_n_n_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf

class Facts : Prop extends Facts₀ where

variable [Facts]
-- ==== Proof.Spec.lean ====
/-
  The neighbourhood decoder as functions of its arguments, index by index, over the extended reals.

  A point `n` carries 160 features.  The first 32 are decoded by a linear map into 24 numbers, the relative coordinates
  of 8 generated neighbours (neighbour `k`, coordinate `d` at column `3k + d`):
      rel n j = (∑ s < 32, X (n, s) * DW (s, j)) + DB j.
  Neighbour `k` of point `n` is placed at
      newPoint n k d = P (n, d) + rel n (3k + d) * 1/2,
  and its feature vector is a two-layer perceptron with rectifiers over the neighbour's relative coordinates followed by the
  point's other 128 features.  The first layer's weight matrix is given in two row bands, `WA` for the 3 coordinates and
  `WB` for the 128 features:
      hiddenUnit n k q     = max (((∑ d < 3, rel n (3k + d) * WA (d, q)) + (∑ s < 128, X (n, 32 + s) * WB (s, q))) + B1 q) 0,
      newFeature n k o = max ((∑ q < 96, hiddenUnit n k q * W2 (q, o)) + B2 o) 0.
  All of it is stated for any number `R` of points, so that the same functions describe a block of rows and the whole array;
  `restrict` lemmas say that a block of rows of the arrays gives the corresponding rows of the results.

  The one algebraic law used against a program that multiplies the concatenated 131 numbers (3 coordinates, 128 features)
  by the whole first-layer matrix is the splitting of a sum over 131 terms into its first 3 and its last 128 terms, true in
  any additive commutative monoid, the extended reals included: no finiteness is needed anywhere.
-/
import Idealize.ShloMosaic.PureOps.Ideal
import Idealize.ShloMosaic.Lib.ValueIdx
import Mathlib.Algebra.BigOperators.Fin

noncomputable section

namespace Cert.Decoder

open Idealize.ShloMosaic Idealize.ShloMosaic.ValueIdx

/-- The scale of the relative coordinates, one half, as the programs spell it. -/
abbrev half : EReal := Ideal.ofBits .f32 0x3F000000#32
/-- The rectifiers' threshold, zero, as the programs spell it. -/
abbrev zero : EReal := Ideal.ofBits .f32 0x00000000#32

/-- Column `3k + d` of the 24 decoded numbers: coordinate `d` of neighbour `k`. -/
def col (k : Fin 8) (d : Fin 3) : Fin 24 := ⟨3 * k.val + d.val, by have := k.isLt; have := d.isLt; omega⟩

/-- Feature column `s` of the first 32. -/
def lo (s : Fin 32) : Fin 160 := ⟨s.val, by have := s.isLt; omega⟩
/-- Feature column `32 + s` of the last 128. -/
def hi (s : Fin 128) : Fin 160 := ⟨32 + s.val, by have := s.isLt; omega⟩

variable {R : Nat}

/-- The decoded relative coordinates of point `n`, column `j`. -/
def rel (X : FVec Ideal ⟨2, ![R, 160]⟩ .f32) (DW : FVec Ideal ⟨2, ![32, 24]⟩ .f32) (DB : FVec Ideal ⟨1, ![24]⟩ .f32)
    (n : Fin R) (j : Fin 24) : EReal :=
  (∑ s : Fin 32, X (ix2 n (lo s)) * DW (ix2 s j)) + DB (ix1 j)

/-- Coordinate `d` of neighbour `k` of point `n`. -/
def newPoint (P : FVec Ideal ⟨2, ![R, 3]⟩ .f32) (X : FVec Ideal ⟨2, ![R, 160]⟩ .f32) (DW : FVec Ideal ⟨2, ![32, 24]⟩ .f32)
    (DB : FVec Ideal ⟨1, ![24]⟩ .f32) (n : Fin R) (k : Fin 8) (d : Fin 3) : EReal :=
  P (ix2 n d) + rel X DW DB n (col k d) * half

/-- Hidden unit `q` of neighbour `k` of point `n`. -/
def hiddenUnit (X : FVec Ideal ⟨2, ![R, 160]⟩ .f32) (DW : FVec Ideal ⟨2, ![32, 24]⟩ .f32) (DB : FVec Ideal ⟨1, ![24]⟩ .f32)
    (WA : FVec Ideal ⟨2, ![3, 96]⟩ .f32) (WB : FVec Ideal ⟨2, ![128, 96]⟩ .f32) (B1 : FVec Ideal ⟨1, ![96]⟩ .f32)
    (n : Fin R) (k : Fin 8) (q : Fin 96) : EReal :=
  max (((∑ d : Fin 3, rel X DW DB n (col k d) * WA (ix2 d q)) + (∑ s : Fin 128, X (ix2 n (hi s)) * WB (ix2 s q))) + B1 (ix1 q)) zero

/-- Feature `o` of neighbour `k` of point `n`. -/
def newFeature (X : FVec Ideal ⟨2, ![R, 160]⟩ .f32) (DW : FVec Ideal ⟨2, ![32, 24]⟩ .f32) (DB : FVec Ideal ⟨1, ![24]⟩ .f32)
    (WA : FVec Ideal ⟨2, ![3, 96]⟩ .f32) (WB : FVec Ideal ⟨2, ![128, 96]⟩ .f32) (B1 : FVec Ideal ⟨1, ![96]⟩ .f32)
    (W2 : FVec Ideal ⟨2, ![96, 64]⟩ .f32) (B2 : FVec Ideal ⟨1, ![64]⟩ .f32)
    (n : Fin R) (k : Fin 8) (o : Fin 64) : EReal :=
  max ((∑ q : Fin 96, hiddenUnit X DW DB WA WB B1 n k q * W2 (ix2 q o)) + B2 (ix1 o)) zero

/-! ## A block of rows gives the same rows of the results -/

section Restrict

variable {R' : Nat} (X : FVec Ideal ⟨2, ![R, 160]⟩ .f32) (X' : FVec Ideal ⟨2, ![R', 160]⟩ .f32)
  (DW : FVec Ideal ⟨2, ![32, 24]⟩ .f32) (DB : FVec Ideal ⟨1, ![24]⟩ .f32) (n : Fin R) (n' : Fin R')
  (hX : ∀ e : Fin 160, X' (ix2 n' e) = X (ix2 n e))

include hX in
theorem rel_restrict (j : Fin 24) : rel X' DW DB n' j = rel X DW DB n j := by
  unfold rel
  exact congrArg (· + DB (ix1 j)) (Finset.sum_congr rfl fun s _ => by rw [hX])

include hX in
theorem newPoint_restrict (P : FVec Ideal ⟨2, ![R, 3]⟩ .f32) (P' : FVec Ideal ⟨2, ![R', 3]⟩ .f32)
    (hP : ∀ d : Fin 3, P' (ix2 n' d) = P (ix2 n d)) (k : Fin 8) (d : Fin 3) :
    newPoint P' X' DW DB n' k d = newPoint P X DW DB n k d := by
  unfold newPoint
  rw [hP, rel_restrict X X' DW DB n n' hX]

include hX in
theorem hiddenUnit_restrict (WA : FVec Ideal ⟨2, ![3, 96]⟩ .f32) (WB : FVec Ideal ⟨2, ![128, 96]⟩ .f32)
    (B1 : FVec Ideal ⟨1, ![96]⟩ .f32) (k : Fin 8) (q : Fin 96) :
    hiddenUnit X' DW DB WA WB B1 n' k q = hiddenUnit X DW DB WA WB B1 n k q := by
  unfold hiddenUnit
  simp only [rel_restrict X X' DW DB n n' hX, hX]

include hX in
theorem newFeature_restrict (WA : FVec Ideal ⟨2, ![3, 96]⟩ .f32) (WB : FVec Ideal ⟨2, ![128, 96]⟩ .f32)
    (B1 : FVec Ideal ⟨1, ![96]⟩ .f32) (W2 : FVec Ideal ⟨2, ![96, 64]⟩ .f32) (B2 : FVec Ideal ⟨1, ![64]⟩ .f32)
    (k : Fin 8) (o : Fin 64) :
    newFeature X' DW DB WA WB B1 W2 B2 n' k o = newFeature X DW DB WA WB B1 W2 B2 n k o := by
  unfold newFeature
  simp only [hiddenUnit_restrict X X' DW DB n n' hX]

end Restrict

/-! ## A sum over 131 terms is its first 3 plus its last 128 -/

theorem sum_131 {M : Type} [AddCommMonoid M] (f : Fin 131 → M) :
    ∑ k : Fin 131, f k
      = (∑ d : Fin 3, f ⟨d.val, by have := d.isLt; omega⟩) + ∑ s : Fin 128, f ⟨3 + s.val, by have := s.isLt; omega⟩ :=
  Fin.sum_univ_add (a := 3) (b := 128) f

end Cert.Decoder

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KernelBlock.lean ====
/-
  What one grid point of the decoder kernel leaves in its two output blocks, index by index, over the extended reals.

  A grid point works on 2000 rows.  Its body forms the decoded coordinates
      rel r j = (∑ s < 32, x0 (r, s) * x2 (s, j)) + x3 j                       (a 32-term matrix product plus a row of biases),
  the feature term shared by a row's eight neighbours
      (∑ s < 128, x0 (r, 32 + s) * x5 (s, q)),
  and then, for each neighbour k = 0 … 7, takes the three columns 3k, 3k+1, 3k+2 of `rel`, stores
      x1 (r, d) + rel r (3k + d) * 1/2
  as slab k of the [2000, 8, 3] block, and stores the two-layer perceptron of those three numbers and the feature term as slab
  k of the [2000, 8, 64] block.  Each matrix product is a sum over its contraction index into a zero accumulator, a slice
  reads its source at shifted columns, a row of biases is broadcast down the rows, and a [2000, n] value stored as a
  [2000, 1, n] slab keeps its entries.

  Every slab is therefore the restriction to its rectangle of ONE function of the block index (row, neighbour, column):
  `blockPoint` and `blockFeature`, the decoder's functions over 2000 rows.  Eight slabs tile a block, so each block IS that
  function.
-/
import proofs.«132020_j45389214384422_1_alg».proof.Proof.Gen.KernelIdeal.Frame
import proofs.«132020_j45389214384422_1_alg».proof.Proof.Spec
import proofs.«132020_j45389214384422_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Idealize.ShloMosaic Idealize.ShloMosaic.TcCoe Idealize.ShloMosaic.ValueIdx
open Cert.KernelIdeal Cert.KernelIdeal.Gen Cert.Decoder

/-- The decoded coordinates of a block of rows. -/
theorem rel_block (x0 : Vec Ideal S2000x160 .f32) (x2 : Vec Ideal S32x24 .f32) (x3 : Vec Ideal S24 .f32) (r : Fin 2000) (j : Fin 24) :
    k0_pay2 (F := Ideal) x0 x2 x3 (ix2 r j) = rel x0 x2 x3 r j := by
  unfold k0_pay2 rel
  show FloatOps.matmul _ _ _ _ _ (ix2 r j) + _ = _
  refine congrArg₂ (· + ·) ?_ ?_
  · refine (Ideal.matmul_constant_zero_apply _ _ _ _ (ix2 r j)).trans ?_
    refine (PlainDot.sum_eq dot_S2000x32_S32x24_S2000x24_1_0_0_1_n_n rfl rfl rfl rfl rfl rfl _ _ r j).trans ?_
    refine Finset.sum_congr rfl fun s _ => congrArg (· * x2 (ix2 s j)) ?_
    exact slice2_axis1_apply 0 x0 _ r s (lo s) (Nat.zero_add _).symm
  · refine (broadcastTo_1b_ab_apply _ _ r j).trans ?_
    exact shapeCast_a_1a_apply x3 _ 0 j

/-- The feature term of the first layer, shared by the eight neighbours of a row. -/
theorem feat_block (x0 : Vec Ideal S2000x160 .f32) (x5 : Vec Ideal S128x96 .f32) (r : Fin 2000) (q : Fin 96) :
    k0_pay3 (F := Ideal) x0 x5 (ix2 r q) = ∑ s : Fin 128, x0 (ix2 r (hi s)) * x5 (ix2 s q) := by
  unfold k0_pay3
  refine (Ideal.matmul_constant_zero_apply _ _ _ _ (ix2 r q)).trans ?_
  refine (PlainDot.sum_eq dot_S2000x128_S128x96_S2000x96_1_0_0_1_n_n rfl rfl rfl rfl rfl rfl _ _ r q).trans ?_
  refine Finset.sum_congr rfl fun s _ => congrArg₂ (· * ·) ?_ ?_
  · exact slice2_axis1_apply 32 x0 _ r s (hi s) rfl
  · rw [shapeCast_self]

/-- Three consecutive columns of the decoded coordinates, from column `o`. -/
theorem rel_slice (o : Nat) (v9 : FVec Ideal S2000x24 .f32) (h : S2000x24.Slices ![0, o] S2000x3) (r : Fin 2000) (d : Fin 3)
    (j : Fin 24) (hj : j.val = o + d.val) :
    extractStridedSlice S2000x3 ![0, o] v9 h (ix2 r d) = v9 (ix2 r j) :=
  slice2_axis1_apply o v9 h r d j hj

/-- What is stored for one neighbour's coordinates: the anchor plus half the relative coordinates, as a [2000, 1, 3] slab. -/
def pointsPayload {F : FTy → Type} [FloatOps F] (x1 : Vec F S2000x3 .f32) (sl : FVec F S2000x3 .f32) : FVec F S2000x1x3 .f32 :=
  shapeCast S2000x1x3 (addf x1 (mulf sl (broadcast S2000x3 (Scalar.ofBits .f32 0x3F000000#32)))) Facts₀.shapeCasts_S2000x3_S2000x1x3

theorem pointsPayload_apply (x1 : Vec Ideal S2000x3 .f32) (sl : FVec Ideal S2000x3 .f32) (r : Fin 2000) (u : Fin 1) (d : Fin 3) :
    pointsPayload (F := Ideal) x1 sl (ix3 r u d) = x1 (ix2 r d) + sl (ix2 r d) * half := by
  unfold pointsPayload
  refine (shapeCast_apply _ _ (ix3 r u d) (ix2 r d) ?_).trans rfl
  rw [Shape.rowMajor_val_two, Shape.rowMajor_val_three]
  have hu : u.val = 0 := by omega
  show r.val * 3 + d.val = (r.val * 1 + u.val) * 3 + d.val
  omega

/-- What is stored for one neighbour's features, as a [2000, 1, 64] slab, from the neighbour's three relative coordinates `sl`. -/
theorem mlp_apply (v12 : FVec Ideal S2000x96 .f32) (v13 : Vec Ideal S96 .f32) (v15 : FVec Ideal S3x96 .f32) (v16 : Vec Ideal S96x64 .f32)
    (v17 : Vec Ideal S64 .f32) (sl : FVec Ideal S2000x3 .f32) (r : Fin 2000) (u : Fin 1) (o : Fin 64) :
    k0_pay15 (F := Ideal) v12 v13 v15 v16 v17 sl (ix3 r u o)
      = max ((∑ q : Fin 96, max (((∑ d : Fin 3, sl (ix2 r d) * v15 (ix2 d q)) + v12 (ix2 r q)) + v13 (ix1 q)) zero * v16 (ix2 q o)) + v17 (ix1 o)) zero := by
  unfold k0_pay15
  refine (shapeCast_apply _ _ (ix3 r u o) (ix2 r o) ?_).trans ?_
  · rw [Shape.rowMajor_val_two, Shape.rowMajor_val_three]
    have hu : u.val = 0 := by omega
    show r.val * 64 + o.val = (r.val * 1 + u.val) * 64 + o.val
    omega
  show max (FloatOps.matmul _ _ _ _ _ (ix2 r o) + _) _ = _
  refine congrArg₂ max (congrArg₂ (· + ·) ?_ ?_) rfl
  · refine (Ideal.matmul_constant_zero_apply _ _ _ _ (ix2 r o)).trans ?_
    refine (PlainDot.sum_eq dot_S2000x96_S96x64_S2000x64_1_0_0_1_n_n rfl rfl rfl rfl rfl rfl _ _ r o).trans ?_
    refine Finset.sum_congr rfl fun q _ => congrArg (· * v16 (ix2 q o)) ?_
    show max ((FloatOps.matmul _ _ _ _ _ (ix2 r q) + _) + _) _ = _
    refine congrArg₂ max (congrArg₂ (· + ·) (congrArg (· + v12 (ix2 r q)) ?_) ?_) rfl
    · refine (Ideal.matmul_constant_zero_apply _ _ _ _ (ix2 r q)).trans ?_
      exact PlainDot.sum_eq dot_S2000x3_S3x96_S2000x96_1_0_0_1_n_n rfl rfl rfl rfl rfl rfl _ _ r q
    · refine (broadcastTo_1b_ab_apply _ _ r q).trans ?_
      exact shapeCast_a_1a_apply v13 _ 0 q
  · refine (broadcastTo_1b_ab_apply _ _ r o).trans ?_
    exact shapeCast_a_1a_apply v17 _ 0 o

/-! ## The two output blocks, index by index -/

/-- The coordinates block of a point's 2000 rows: row `r`, neighbour `k`, coordinate `d`. -/
def blockPoint (x1 : Vec Ideal S2000x3 .f32) (x0 : Vec Ideal S2000x160 .f32) (x2 : Vec Ideal S32x24 .f32) (x3 : Vec Ideal S24 .f32) :
    Vec Ideal S2000x8x3 .f32 := fun y => newPoint x1 x0 x2 x3 (y 0) (y 1) (y 2)

/-- The features block of a point's 2000 rows: row `r`, neighbour `k`, feature `o`. -/
def blockFeature (x0 : Vec Ideal S2000x160 .f32) (x2 : Vec Ideal S32x24 .f32) (x3 : Vec Ideal S24 .f32) (x4 : Vec Ideal S3x96 .f32)
    (x5 : Vec Ideal S128x96 .f32) (x6 : Vec Ideal S96 .f32) (x7 : Vec Ideal S96x64 .f32) (x8 : Vec Ideal S64 .f32) :
    Vec Ideal S2000x8x64 .f32 := fun y => newFeature x0 x2 x3 x4 x5 x6 x7 x8 (y 0) (y 1) (y 2)

theorem hz1 : (![0] : Fin 1 → Nat) = fun _ => 0 := funext fun a => by fin_cases a; rfl
theorem hz2 : (![0, 0] : Fin 2 → Nat) = fun _ => 0 := funext fun a => by fin_cases a <;> rfl

/-- Neighbour `k`'s slab of a [2000, 8, n] block sits at rows `r`, neighbour `k`, columns `e`. -/
theorem slab_emb {n : Nat} (kk : Nat) (hk : kk < 8)
    (inb : ∀ a, (![0, kk, 0] : Fin 3 → Nat) a + (![2000, 1, n] : Fin 3 → Nat) a ≤ (⟨3, ![2000, 8, n]⟩ : Shape).size a)
    (r : Fin 2000) (u : Fin 1) (e : Fin n) :
    (Rect.unit (s := ⟨3, ![2000, 8, n]⟩) ![0, kk, 0] ![2000, 1, n] inb).emb (ix3 r u e) = ix3 r ⟨kk, hk⟩ e := by
  funext a
  apply Fin.ext
  have hu : u.val = 0 := by omega
  match a with
  | ⟨0, _⟩ => simp only [Rect.emb_apply, Rect.off_unit, Rect.stride_unit]; show 0 + 1 * r.val = r.val; omega
  | ⟨1, _⟩ => simp only [Rect.emb_apply, Rect.off_unit, Rect.stride_unit]; show kk + 1 * u.val = kk; omega
  | ⟨2, _⟩ => simp only [Rect.emb_apply, Rect.off_unit, Rect.stride_unit]; show 0 + 1 * e.val = e.val; omega

/-- Neighbour `k`'s coordinates slab is the block function on its rectangle. -/
theorem points_piece (o kk : Nat) (hk : kk < 8) (ho : o = 3 * kk) (h : S2000x24.Slices ![0, o] S2000x3)
    (inb : ∀ a, (![0, kk, 0] : Fin 3 → Nat) a + S2000x1x3.size a ≤ S2000x8x3.size a)
    (x0 : Vec Ideal S2000x160 .f32) (x1 : Vec Ideal S2000x3 .f32) (x2 : Vec Ideal S32x24 .f32) (x3 : Vec Ideal S24 .f32)
    (x : (Rect.unit (s := S2000x8x3) ![0, kk, 0] S2000x1x3.size inb).shape.Idx) :
    pointsPayload (F := Ideal) x1 (extractStridedSlice S2000x3 ![0, o] (k0_pay2 (F := Ideal) x0 x2 x3) h) x
      = blockPoint x1 x0 x2 x3 ((Rect.unit (s := S2000x8x3) ![0, kk, 0] S2000x1x3.size inb).emb x) := by
  obtain ⟨r, u, d, rfl⟩ : ∃ (r : Fin 2000) (u : Fin 1) (d : Fin 3), x = ix3 r u d := ⟨x 0, x 1, x 2, eq_ix3 x⟩
  rw [slab_emb kk hk inb r u d, pointsPayload_apply]
  show _ = newPoint x1 x0 x2 x3 r ⟨kk, hk⟩ d
  unfold newPoint
  rw [rel_slice o _ h r d (col ⟨kk, hk⟩ d) (by subst ho; rfl), rel_block]

/-- Neighbour `k`'s features slab is the block function on its rectangle. -/
theorem feature_piece (o kk : Nat) (hk : kk < 8) (ho : o = 3 * kk) (h : S2000x24.Slices ![0, o] S2000x3)
    (inb : ∀ a, (![0, kk, 0] : Fin 3 → Nat) a + S2000x1x64.size a ≤ S2000x8x64.size a)
    (x0 : Vec Ideal S2000x160 .f32) (x2 : Vec Ideal S32x24 .f32) (x3 : Vec Ideal S24 .f32) (x4 : Vec Ideal S3x96 .f32)
    (x5 : Vec Ideal S128x96 .f32) (x6 : Vec Ideal S96 .f32) (x7 : Vec Ideal S96x64 .f32) (x8 : Vec Ideal S64 .f32)
    (x : (Rect.unit (s := S2000x8x64) ![0, kk, 0] S2000x1x64.size inb).shape.Idx) :
    k0_pay15 (F := Ideal) (k0_pay3 (F := Ideal) x0 x5) x6 (k0_pay4 (F := Ideal) x4) x7 x8
        (extractStridedSlice S2000x3 ![0, o] (k0_pay2 (F := Ideal) x0 x2 x3) h) x
      = blockFeature x0 x2 x3 x4 x5 x6 x7 x8 ((Rect.unit (s := S2000x8x64) ![0, kk, 0] S2000x1x64.size inb).emb x) := by
  obtain ⟨r, u, e, rfl⟩ : ∃ (r : Fin 2000) (u : Fin 1) (e : Fin 64), x = ix3 r u e := ⟨x 0, x 1, x 2, eq_ix3 x⟩
  rw [slab_emb kk hk inb r u e, mlp_apply]
  show _ = newFeature x0 x2 x3 x4 x5 x6 x7 x8 r ⟨kk, hk⟩ e
  unfold newFeature hiddenUnit
  have hs : ∀ d : Fin 3, extractStridedSlice S2000x3 ![0, o] (k0_pay2 (F := Ideal) x0 x2 x3) h (ix2 r d) = rel x0 x2 x3 r (col ⟨kk, hk⟩ d) :=
    fun d => (rel_slice o _ h r d (col ⟨kk, hk⟩ d) (by subst ho; rfl)).trans (rel_block x0 x2 x3 r _)
  have h4 : k0_pay4 (F := Ideal) x4 = x4 := by unfold k0_pay4; rw [shapeCast_self]
  simp only [hs, h4, feat_block]

theorem out0_9_apply (x0 : Vec Ideal S2000x160 .f32) (x1 : Vec Ideal S2000x3 .f32) (x2 : Vec Ideal S32x24 .f32) (x3 : Vec Ideal S24 .f32)
    (x4 : Vec Ideal S3x96 .f32) (x5 : Vec Ideal S128x96 .f32) (x6 : Vec Ideal S96 .f32) (x7 : Vec Ideal S96x64 .f32) (x8 : Vec Ideal S64 .f32) :
    out0_9 (F := Ideal) x0 x1 x2 x3 x4 x5 x6 x7 x8 = blockPoint x1 x0 x2 x3 := by
  funext y
  unfold out0_9
  simp only [View.ld_unit_zero (S := S2000x160) hz2, View.ld_unit_zero (S := S2000x3) hz2, View.ld_unit_zero (S := S32x24) hz2,
    View.ld_unit_zero (S := S24) hz1]
  refine View.canon_apply_of_pieces (blockPoint x1 x0 x2 x3) _ ?_ y (cover0_9 _ _ _ _ _ _ _ _ y)
  intro p hp
  simp only [List.mem_cons, List.mem_nil_iff, or_false] at hp
  rcases hp with rfl | rfl | rfl | rfl | rfl | rfl | rfl | rfl
  · exact points_piece 21 7 (by omega) rfl Facts₀.slices_S2000x24_o0_21_S2000x3 Facts₀.inb_S2000x8x3_S2000x1x3_0_7_0 x0 x1 x2 x3
  · exact points_piece 18 6 (by omega) rfl Facts₀.slices_S2000x24_o0_18_S2000x3 Facts₀.inb_S2000x8x3_S2000x1x3_0_6_0 x0 x1 x2 x3
  · exact points_piece 15 5 (by omega) rfl Facts₀.slices_S2000x24_o0_15_S2000x3 Facts₀.inb_S2000x8x3_S2000x1x3_0_5_0 x0 x1 x2 x3
  · exact points_piece 12 4 (by omega) rfl Facts₀.slices_S2000x24_o0_12_S2000x3 Facts₀.inb_S2000x8x3_S2000x1x3_0_4_0 x0 x1 x2 x3
  · exact points_piece 9 3 (by omega) rfl Facts₀.slices_S2000x24_o0_9_S2000x3 Facts₀.inb_S2000x8x3_S2000x1x3_0_3_0 x0 x1 x2 x3
  · exact points_piece 6 2 (by omega) rfl Facts₀.slices_S2000x24_o0_6_S2000x3 Facts₀.inb_S2000x8x3_S2000x1x3_0_2_0 x0 x1 x2 x3
  · exact points_piece 3 1 (by omega) rfl Facts₀.slices_S2000x24_o0_3_S2000x3 Facts₀.inb_S2000x8x3_S2000x1x3_0_1_0 x0 x1 x2 x3
  · exact points_piece 0 0 (by omega) rfl Facts₀.slices_S2000x24_o0_0_S2000x3 Facts₀.inb_S2000x8x3_S2000x1x3_0_0_0 x0 x1 x2 x3

theorem out0_10_apply (x0 : Vec Ideal S2000x160 .f32) (x1 : Vec Ideal S2000x3 .f32) (x2 : Vec Ideal S32x24 .f32) (x3 : Vec Ideal S24 .f32)
    (x4 : Vec Ideal S3x96 .f32) (x5 : Vec Ideal S128x96 .f32) (x6 : Vec Ideal S96 .f32) (x7 : Vec Ideal S96x64 .f32) (x8 : Vec Ideal S64 .f32) :
    out0_10 (F := Ideal) x0 x1 x2 x3 x4 x5 x6 x7 x8 = blockFeature x0 x2 x3 x4 x5 x6 x7 x8 := by
  funext y
  unfold out0_10
  simp only [View.ld_unit_zero (S := S2000x160) hz2, View.ld_unit_zero (S := S32x24) hz2, View.ld_unit_zero (S := S24) hz1,
    View.ld_unit_zero (S := S3x96) hz2, View.ld_unit_zero (S := S128x96) hz2, View.ld_unit_zero (S := S96) hz1,
    View.ld_unit_zero (S := S96x64) hz2, View.ld_unit_zero (S := S64) hz1]
  refine View.canon_apply_of_pieces (blockFeature x0 x2 x3 x4 x5 x6 x7 x8) _ ?_ y (cover0_10 _ _ _ _ _ _ _ _ y)
  intro p hp
  simp only [List.mem_cons, List.mem_nil_iff, or_false] at hp
  rcases hp with rfl | rfl | rfl | rfl | rfl | rfl | rfl | rfl
  · exact feature_piece 21 7 (by omega) rfl Facts₀.slices_S2000x24_o0_21_S2000x3 Facts₀.inb_S2000x8x64_S2000x1x64_0_7_0 x0 x2 x3 x4 x5 x6 x7 x8
  · exact feature_piece 18 6 (by omega) rfl Facts₀.slices_S2000x24_o0_18_S2000x3 Facts₀.inb_S2000x8x64_S2000x1x64_0_6_0 x0 x2 x3 x4 x5 x6 x7 x8
  · exact feature_piece 15 5 (by omega) rfl Facts₀.slices_S2000x24_o0_15_S2000x3 Facts₀.inb_S2000x8x64_S2000x1x64_0_5_0 x0 x2 x3 x4 x5 x6 x7 x8
  · exact feature_piece 12 4 (by omega) rfl Facts₀.slices_S2000x24_o0_12_S2000x3 Facts₀.inb_S2000x8x64_S2000x1x64_0_4_0 x0 x2 x3 x4 x5 x6 x7 x8
  · exact feature_piece 9 3 (by omega) rfl Facts₀.slices_S2000x24_o0_9_S2000x3 Facts₀.inb_S2000x8x64_S2000x1x64_0_3_0 x0 x2 x3 x4 x5 x6 x7 x8
  · exact feature_piece 6 2 (by omega) rfl Facts₀.slices_S2000x24_o0_6_S2000x3 Facts₀.inb_S2000x8x64_S2000x1x64_0_2_0 x0 x2 x3 x4 x5 x6 x7 x8
  · exact feature_piece 3 1 (by omega) rfl Facts₀.slices_S2000x24_o0_3_S2000x3 Facts₀.inb_S2000x8x64_S2000x1x64_0_1_0 x0 x2 x3 x4 x5 x6 x7 x8
  · exact feature_piece 0 0 (by omega) rfl Facts₀.slices_S2000x24_o0_0_S2000x3 Facts₀.inb_S2000x8x64_S2000x1x64_0_0_0 x0 x2 x3 x4 x5 x6 x7 x8

end Cert.KernelIdeal.Block

end
-- ==== Proof.KernelArrays.lean ====
/-
  From blocks to arrays: what the decoder kernel's two result arrays hold after all 50 grid points have run.

  Grid point `t` is handed rows 2000 t … 2000 t + 1999 of the features and of the anchor points and the whole of every other
  array (the decoder's weights and biases, the two row bands of the first layer's weights, the remaining weights and biases),
  and it writes back rows 2000 t … 2000 t + 1999 of both results.  The decoder's functions depend on a point's own row only,
  so a block of rows of the arguments gives the same rows of the results: what point `t` writes back is block `t` of
  `arrPoint` and `arrFeature`, the decoder's functions over all 100000 points.  Row `n` is written by point `n / 2000`, so
  the 50 blocks cover both arrays and the arrays end holding those functions.
-/
import proofs.«132020_j45389214384422_1_alg».proof.Proof.Gen.KernelIdeal.Frame
import proofs.«132020_j45389214384422_1_alg».proof.Proof.Spec
import proofs.«132020_j45389214384422_1_alg».proof.Proof.KernelBlock
import Idealize.ShloMosaic.Lib.Pipeline.Value
import Idealize.ShloMosaic.Lib.ValueIdx
import Idealize.ShloMosaic.Lib.Tactic

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Block Cert.Decoder

variable (m : (ℓ : Loc nD τ sig) → Buf (Elt Ideal) ℓ) (ρ : Dev nD → PrngReg)

/-! ## The arrays the region works on, and the two result arrays as functions of them -/

/-- The anchor points, the features, the decoder's weights and biases, and the two row bands of the first layer's
    weights, as the region finds them. -/
abbrev aP (c : Dev nD) : Vec Ideal S100000x3 .f32 := V m c main_arg0
abbrev aX (c : Dev nD) : Vec Ideal S100000x160 .f32 := V m c main_arg1
abbrev aDW (c : Dev nD) : Vec Ideal S32x24 .f32 := V m c main_arg3
abbrev aDB (c : Dev nD) : Vec Ideal S24 .f32 := V m c main_arg4
abbrev aWA (c : Dev nD) : Vec Ideal S3x96 .f32 := V m c main_v0
abbrev aWB (c : Dev nD) : Vec Ideal S128x96 .f32 := V m c main_v1
abbrev aB1 (c : Dev nD) : Vec Ideal S96 .f32 := V m c main_arg6
abbrev aW2 (c : Dev nD) : Vec Ideal S96x64 .f32 := V m c main_arg7
abbrev aB2 (c : Dev nD) : Vec Ideal S64 .f32 := V m c main_arg8

/-- The generated neighbours' coordinates: point `n`, neighbour `k`, coordinate `d`. -/
def arrPoint (c : Dev nD) : Vec Ideal S100000x8x3 .f32 :=
  fun i => newPoint (aP m c) (aX m c) (aDW m c) (aDB m c) (i 0) (i 1) (i 2)

/-- The generated neighbours' features: point `n`, neighbour `k`, feature `o`. -/
def arrFeature (c : Dev nD) : Vec Ideal S100000x8x64 .f32 :=
  fun i => newFeature (aX m c) (aDW m c) (aDB m c) (aWA m c) (aWB m c) (aB1 m c) (aW2 m c) (aB2 m c) (i 0) (i 1) (i 2)

/-! ## The index maps, decided once over the 50 grid points -/

/-- Point `t` takes row block `t` of the features, the anchors and both results, and the whole of every other array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 3) = t.val ∧ win0_9.index t (1 : Fin 3) = 0 ∧ win0_9.index t (2 : Fin 3) = 0
    ∧ win0_10.index t (0 : Fin 3) = t.val ∧ win0_10.index t (1 : Fin 3) = 0 ∧ win0_10.index t (2 : Fin 3) = 0 :=
  (by decide +kernel : ∀ t : Fin grid0.N, _)

/-! ## The input blocks as rows of the arrays -/

/-- Row `r` of point `t`'s block of features is row `2000 t + r` of the array. -/
theorem iblk0_apply (c : Dev nD) (t : Fin cfg0.N) (r : Fin 2000) (e : Fin 160) (n : Fin 100000) (hn : n.val = 2000 * t.val + r.val) :
    (iblk m c 0 t : Vec Ideal S2000x160 .f32) (ix2 r e) = aX m c (ix2 n e) := by
  obtain ⟨e0, e1, -⟩ := idx_facts t
  unfold iblk
  rw [View.read_apply]
  show V m c main_arg1 _ = V m c main_arg1 _
  congr 1
  funext a
  apply Fin.ext
  match a with
  | ⟨0, _⟩ => show win0_0.index t (0 : Fin 2) * 2000 + 1 * r.val = n.val; rw [e0, hn]; omega
  | ⟨1, _⟩ => show win0_0.index t (1 : Fin 2) * 160 + 1 * e.val = e.val; rw [e1]; omega

/-- Row `r` of point `t`'s block of anchors is row `2000 t + r` of the array. -/
theorem iblk1_apply (c : Dev nD) (t : Fin cfg0.N) (r : Fin 2000) (d : Fin 3) (n : Fin 100000) (hn : n.val = 2000 * t.val + r.val) :
    (iblk m c 1 t : Vec Ideal S2000x3 .f32) (ix2 r d) = aP m c (ix2 n d) := by
  obtain ⟨-, -, e0, e1, -⟩ := idx_facts t
  unfold iblk
  rw [View.read_apply]
  show V m c main_arg0 _ = V m c main_arg0 _
  congr 1
  funext a
  apply Fin.ext
  match a with
  | ⟨0, _⟩ => show win0_1.index t (0 : Fin 2) * 2000 + 1 * r.val = n.val; rw [e0, hn]; omega
  | ⟨1, _⟩ => show win0_1.index t (1 : Fin 2) * 3 + 1 * d.val = d.val; rw [e1]; omega

/-- Every point's block of the decoder's weights is the whole array; likewise the six arrays after it. -/
theorem iblk2_eq (c : Dev nD) (t : Fin cfg0.N) : (iblk m c 2 t : Vec Ideal S32x24 .f32) = aDW m c := by
  obtain ⟨-, -, -, -, e0, e1, -⟩ := idx_facts t
  funext y
  unfold iblk
  rw [View.read_apply]
  show V m c main_arg3 _ = V m c main_arg3 y
  congr 1
  funext a
  apply Fin.ext
  match a with
  | ⟨0, _⟩ => show win0_2.index t (0 : Fin 2) * 32 + 1 * (y 0).val = (y 0).val; rw [e0]; omega
  | ⟨1, _⟩ => show win0_2.index t (1 : Fin 2) * 24 + 1 * (y 1).val = (y 1).val; rw [e1]; omega

theorem iblk3_eq (c : Dev nD) (t : Fin cfg0.N) : (iblk m c 3 t : Vec Ideal S24 .f32) = aDB m c := by
  obtain ⟨-, -, -, -, -, -, e0, -⟩ := idx_facts t
  funext y
  unfold iblk
  rw [View.read_apply]
  show V m c main_arg4 _ = V m c main_arg4 y
  congr 1
  funext a
  apply Fin.ext
  match a with
  | ⟨0, _⟩ => show win0_3.index t (0 : Fin 1) * 24 + 1 * (y 0).val = (y 0).val; rw [e0]; omega

theorem iblk4_eq (c : Dev nD) (t : Fin cfg0.N) : (iblk m c 4 t : Vec Ideal S3x96 .f32) = aWA m c := by
  obtain ⟨-, -, -, -, -, -, -, e0, e1, -⟩ := idx_facts t
  funext y
  unfold iblk
  rw [View.read_apply]
  show V m c main_v0 _ = V m c main_v0 y
  congr 1
  funext a
  apply Fin.ext
  match a with
  | ⟨0, _⟩ => show win0_4.index t (0 : Fin 2) * 3 + 1 * (y 0).val = (y 0).val; rw [e0]; omega
  | ⟨1, _⟩ => show win0_4.index t (1 : Fin 2) * 96 + 1 * (y 1).val = (y 1).val; rw [e1]; omega

theorem iblk5_eq (c : Dev nD) (t : Fin cfg0.N) : (iblk m c 5 t : Vec Ideal S128x96 .f32) = aWB m c := by
  obtain ⟨-, -, -, -, -, -, -, -, -, e0, e1, -⟩ := idx_facts t
  funext y
  unfold iblk
  rw [View.read_apply]
  show V m c main_v1 _ = V m c main_v1 y
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 96 + 1 * (y 1).val = (y 1).val; rw [e1]; omega

theorem iblk6_eq (c : Dev nD) (t : Fin cfg0.N) : (iblk m c 6 t : Vec Ideal S96 .f32) = aB1 m c := by
  obtain ⟨-, -, -, -, -, -, -, -, -, -, -, e0, -⟩ := idx_facts t
  funext y
  unfold iblk
  rw [View.read_apply]
  show V m c main_arg6 _ = V m c main_arg6 y
  congr 1
  funext a
  apply Fin.ext
  match a with
  | ⟨0, _⟩ => show win0_6.index t (0 : Fin 1) * 96 + 1 * (y 0).val = (y 0).val; rw [e0]; omega

theorem iblk7_eq (c : Dev nD) (t : Fin cfg0.N) : (iblk m c 7 t : Vec Ideal S96x64 .f32) = aW2 m c := by
  obtain ⟨-, -, -, -, -, -, -, -, -, -, -, -, e0, e1, -⟩ := idx_facts t
  funext y
  unfold iblk
  rw [View.read_apply]
  show V m c main_arg7 _ = V m c main_arg7 y
  congr 1
  funext a
  apply Fin.ext
  match a with
  | ⟨0, _⟩ => show win0_7.index t (0 : Fin 2) * 96 + 1 * (y 0).val = (y 0).val; rw [e0]; omega
  | ⟨1, _⟩ => show win0_7.index t (1 : Fin 2) * 64 + 1 * (y 1).val = (y 1).val; rw [e1]; omega

theorem iblk8_eq (c : Dev nD) (t : Fin cfg0.N) : (iblk m c 8 t : Vec Ideal S64 .f32) = aB2 m c := by
  obtain ⟨-, -, -, -, -, -, -, -, -, -, -, -, -, -, e0, -⟩ := idx_facts t
  funext y
  unfold iblk
  rw [View.read_apply]
  show V m c main_arg8 _ = V m c main_arg8 y
  congr 1
  funext a
  apply Fin.ext
  match a with
  | ⟨0, _⟩ => show win0_8.index t (0 : Fin 1) * 64 + 1 * (y 0).val = (y 0).val; rw [e0]; omega

/-! ## What a point writes back is its block of the result functions -/

theorem flushed9_eq (c : Dev nD) (t : Fin cfg0.N) :
    (dats m 0 c).flushed 9 t = ((cfg0.win 9).blk t).view.read (Elt Ideal) (arrPoint m c) := by
  show (cfg0.win 9).cut (grid0.coords t) ((dats m 0 c).after 9 t) = _
  rw [after0_9, out0_9_apply]
  have hN : t.val < 50 := lt_of_lt_of_eq t.isLt (show cfg0.N = 50 from N_0)
  obtain ⟨-, -, -, -, -, -, -, -, -, -, -, -, -, -, -, e0, e1, e2, -⟩ := idx_facts t
  funext j
  obtain ⟨r, k, d, rfl⟩ : ∃ (r : Fin 2000) (k : Fin 8) (d : Fin 3), j = ix3 r k d := ⟨j 0, j 1, j 2, eq_ix3 j⟩
  have hemb : ((cfg0.win 9).blk t).view.emb (ix3 r k d) = ix3 (⟨2000 * t.val + r.val, by omega⟩ : Fin 100000) k d := by
    funext a
    apply Fin.ext
    match a with
    | ⟨0, _⟩ => show win0_9.index t (0 : Fin 3) * 2000 + 1 * r.val = 2000 * t.val + r.val; rw [e0]; omega
    | ⟨1, _⟩ => show win0_9.index t (1 : Fin 3) * 8 + 1 * k.val = k.val; rw [e1]; omega
    | ⟨2, _⟩ => show win0_9.index t (2 : Fin 3) * 3 + 1 * d.val = d.val; rw [e2]; omega
  show blockPoint (iblk m c 1 t) (iblk m c 0 t) (iblk m c 2 t) (iblk m c 3 t) (ix3 r k d) = arrPoint m c (((cfg0.win 9).blk t).view.emb (ix3 r k d))
  rw [hemb, iblk2_eq m c t, iblk3_eq m c t]
  exact newPoint_restrict (aX m c) (iblk m c 0 t) (aDW m c) (aDB m c) _ r (fun e => iblk0_apply m c t r e _ rfl)
    (aP m c) (iblk m c 1 t) (fun d' => iblk1_apply m c t r d' _ rfl) k d

theorem flushed10_eq (c : Dev nD) (t : Fin cfg0.N) :
    (dats m 0 c).flushed 10 t = ((cfg0.win 10).blk t).view.read (Elt Ideal) (arrFeature m c) := by
  show (cfg0.win 10).cut (grid0.coords t) ((dats m 0 c).after 10 t) = _
  rw [after0_10, out0_10_apply]
  have hN : t.val < 50 := lt_of_lt_of_eq t.isLt (show cfg0.N = 50 from N_0)
  obtain ⟨-, -, -, -, -, -, -, -, -, -, -, -, -, -, -, -, -, -, e0, e1, e2⟩ := idx_facts t
  funext j
  obtain ⟨r, k, o, rfl⟩ : ∃ (r : Fin 2000) (k : Fin 8) (o : Fin 64), j = ix3 r k o := ⟨j 0, j 1, j 2, eq_ix3 j⟩
  have hemb : ((cfg0.win 10).blk t).view.emb (ix3 r k o) = ix3 (⟨2000 * t.val + r.val, by omega⟩ : Fin 100000) k o := by
    funext a
    apply Fin.ext
    match a with
    | ⟨0, _⟩ => show win0_10.index t (0 : Fin 3) * 2000 + 1 * r.val = 2000 * t.val + r.val; rw [e0]; omega
    | ⟨1, _⟩ => show win0_10.index t (1 : Fin 3) * 8 + 1 * k.val = k.val; rw [e1]; omega
    | ⟨2, _⟩ => show win0_10.index t (2 : Fin 3) * 64 + 1 * o.val = o.val; rw [e2]; omega
  show blockFeature (iblk m c 0 t) (iblk m c 2 t) (iblk m c 3 t) (iblk m c 4 t) (iblk m c 5 t) (iblk m c 6 t) (iblk m c 7 t) (iblk m c 8 t) (ix3 r k o)
    = arrFeature m c (((cfg0.win 10).blk t).view.emb (ix3 r k o))
  rw [hemb, iblk2_eq m c t, iblk3_eq m c t, iblk4_eq m c t, iblk5_eq m c t, iblk6_eq m c t, iblk7_eq m c t, iblk8_eq m c t]
  exact newFeature_restrict (aX m c) (iblk m c 0 t) (aDW m c) (aDB m c) _ r (fun e => iblk0_apply m c t r e _ rfl)
    (aWA m c) (aWB m c) (aB1 m c) (aW2 m c) (aB2 m c) k o

/-! ## The blocks cover the arrays: point `n / 2000` writes row `n` -/

theorem mem_blk9 (t : Fin cfg0.N) (i : S100000x8x3.Idx) :
    i ∈ ((cfg0.win 9).blk t).view.set ↔ ∀ a : Fin 3, win0_9.index t a * S2000x8x3.size a ≤ (i a).val ∧ (i a).val < win0_9.index t a * S2000x8x3.size a + S2000x8x3.size a := by
  show i ∈ ((View.whole main_v2_0).slice (win0_9.rect t)).set ↔ _
  rw [View.set_slice_whole, Rect.mem_set_unit]
  exact Iff.rfl

theorem mem_blk10 (t : Fin cfg0.N) (i : S100000x8x64.Idx) :
    i ∈ ((cfg0.win 10).blk t).view.set ↔ ∀ a : Fin 3, win0_10.index t a * S2000x8x64.size a ≤ (i a).val ∧ (i a).val < win0_10.index t a * S2000x8x64.size a + S2000x8x64.size a := by
  show i ∈ ((View.whole main_v2_1).slice (win0_10.rect t)).set ↔ _
  rw [View.set_slice_whole, Rect.mem_set_unit]
  exact Iff.rfl

/-- After the run the coordinates array is `arrPoint`. -/
theorem final9 (c : Dev nD) : (dats m 0 c).arrAt 9 cfg0.N = arrPoint m c :=
  (dats m 0 c).arrAt_eq_of_cover 9 (arrPoint m c) (fun t _ => flushed9_eq m c t) fun i => by
    have h0 : (i 0).val < 100000 := (i 0).isLt
    have h1 : (i 1).val < 8 := (i 1).isLt
    have h2 : (i 2).val < 3 := (i 2).isLt
    let t : Fin cfg0.N := ⟨(i 0).val / 2000, by rw [show cfg0.N = 50 from N_0]; omega⟩
    obtain ⟨-, -, -, -, -, -, -, -, -, -, -, -, -, -, -, e0, e1, e2, -⟩ := idx_facts t
    have ht : t.val = (i 0).val / 2000 := rfl
    refine ⟨t, flush0_9 t, ?_⟩
    rw [mem_blk9]
    intro a
    match a with
    | ⟨0, _⟩ => show win0_9.index t (0 : Fin 3) * 2000 ≤ (i 0).val ∧ (i 0).val < win0_9.index t (0 : Fin 3) * 2000 + 2000; rw [e0, ht]; omega
    | ⟨1, _⟩ => show win0_9.index t (1 : Fin 3) * 8 ≤ (i 1).val ∧ (i 1).val < win0_9.index t (1 : Fin 3) * 8 + 8; rw [e1]; omega
    | ⟨2, _⟩ => show win0_9.index t (2 : Fin 3) * 3 ≤ (i 2).val ∧ (i 2).val < win0_9.index t (2 : Fin 3) * 3 + 3; rw [e2]; omega

/-- After the run the features array is `arrFeature`. -/
theorem final10 (c : Dev nD) : (dats m 0 c).arrAt 10 cfg0.N = arrFeature m c :=
  (dats m 0 c).arrAt_eq_of_cover 10 (arrFeature m c) (fun t _ => flushed10_eq m c t) fun i => by
    have h0 : (i 0).val < 100000 := (i 0).isLt
    have h1 : (i 1).val < 8 := (i 1).isLt
    have h2 : (i 2).val < 64 := (i 2).isLt
    let t : Fin cfg0.N := ⟨(i 0).val / 2000, by rw [show cfg0.N = 50 from N_0]; omega⟩
    obtain ⟨-, -, -, -, -, -, -, -, -, -, -, -, -, -, -, -, -, -, e0, e1, e2⟩ := idx_facts t
    have ht : t.val = (i 0).val / 2000 := rfl
    refine ⟨t, flush0_10 t, ?_⟩
    rw [mem_blk10]
    intro a
    match a with
    | ⟨0, _⟩ => show win0_10.index t (0 : Fin 3) * 2000 ≤ (i 0).val ∧ (i 0).val < win0_10.index t (0 : Fin 3) * 2000 + 2000; rw [e0, ht]; omega
    | ⟨1, _⟩ => show win0_10.index t (1 : Fin 3) * 8 ≤ (i 1).val ∧ (i 1).val < win0_10.index t (1 : Fin 3) * 8 + 8; rw [e1]; omega
    | ⟨2, _⟩ => show win0_10.index t (2 : Fin 3) * 64 ≤ (i 2).val ∧ (i 2).val < win0_10.index t (2 : Fin 3) * 64 + 64; rw [e2]; omega

end Cert.KernelIdeal.Arrays

end
-- ==== Proof.KernelRun.lean ====
/-
  The idealized kernel program's run, with its results named.

  Before the region the program cuts the first layer's [131, 96] matrix into its first 3 rows and its last 128 rows; the
  region hands those two bands to the kernel.  After the region it reshapes the two result arrays from [100000, 8, n] to
  [800000, n] — the (point, neighbour) pair becomes one row index — and repeats every point's batch number eight times.
  So every weakly fair execution ends with the first two results at the decoder's functions of the arrays the region
  found, in that layout, the third at the repeated batch numbers, and every argument as it was.
-/
import proofs.«132020_j45389214384422_1_alg».proof.Proof.Gen.KernelIdeal.Frame
import proofs.«132020_j45389214384422_1_alg».proof.Proof.Spec
import proofs.«132020_j45389214384422_1_alg».proof.Proof.KernelBlock
import proofs.«132020_j45389214384422_1_alg».proof.Proof.KernelArrays
import Idealize.ShloMosaic.Lib.StableHlo.Run
import Idealize.ShloMosaic.Lib.Pipeline.Value
import Idealize.ShloMosaic.Lib.ValueIdx
import Idealize.ShloMosaic.Lib.Tactic

noncomputable section

namespace Cert.KernelIdeal.Results

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Block Cert.KernelIdeal.Arrays Cert.Decoder
open Idealize.ShloMosaic.StableHlo

variable (m : (ℓ : Loc nD τ sig) → Buf (Elt Ideal) ℓ) (ρ : Dev nD → PrngReg)

/-! ## The two row bands of the first layer's matrix, as the host lines before the region leave them -/

theorem aWA_eq (c : Dev nD) :
    aWA m c = extractStridedSlice S3x96 ![0, 0] (m ((c : Thread nD τ).loc main_arg5)) Facts₀.slices_S131x96_S3x96_0_0 := by
  show StableHlo.after hostOps0 (fun b => m (c, b)) (Proc.devRef .tc main_v0) = _
  after_results

theorem aWB_eq (c : Dev nD) :
    aWB m c = extractStridedSlice S128x96 ![3, 0] (m ((c : Thread nD τ).loc main_arg5)) Facts₀.slices_S131x96_S128x96_3_0 := by
  show StableHlo.after hostOps0 (fun b => m (c, b)) (Proc.devRef .tc main_v1) = _
  after_results

/-! ## The results, after the host lines that follow the region: each result array reshaped, the batch numbers repeated -/

theorem tail_v3 (c : Dev nD) :
    Pipeline.afterTail₀ cfgs (dats m) 0 (V0 m) [hostOps1] c main_v3
      = shapeCast S800000x3 (arrPoint m c) Facts₀.shapeCasts_S100000x8x3_S800000x3 := by
  have hw : Pipeline.withArrays (cfgs 0).spec c (V0 m c) (fun w => (dats m 0 c).arrAt w (cfgs 0).N) (Proc.devRef .tc main_v2_0) = arrPoint m c :=
    (Pipeline.withArrays_arr spec0 launch0.win.arr_inj c _ _ 9).trans (final9 m c)
  unfold Pipeline.afterTail₀
  show StableHlo.after hostOps1 _ (Proc.devRef .tc main_v3) = _
  after_results
  rw [hw]
  rfl

theorem tail_v4 (c : Dev nD) :
    Pipeline.afterTail₀ cfgs (dats m) 0 (V0 m) [hostOps1] c main_v4
      = shapeCast S800000x64 (arrFeature m c) Facts₀.shapeCasts_S100000x8x64_S800000x64 := by
  have hw : Pipeline.withArrays (cfgs 0).spec c (V0 m c) (fun w => (dats m 0 c).arrAt w (cfgs 0).N) (Proc.devRef .tc main_v2_1) = arrFeature m c :=
    (Pipeline.withArrays_arr spec0 launch0.win.arr_inj c _ _ 10).trans (final10 m c)
  unfold Pipeline.afterTail₀
  show StableHlo.after hostOps1 _ (Proc.devRef .tc main_v4) = _
  after_results
  rw [hw]
  rfl

theorem tail_v6 (c : Dev nD) :
    Pipeline.afterTail₀ cfgs (dats m) 0 (V0 m) [hostOps1] c main_v6
      = shapeCast S800000 (broadcastInDim S100000x8 ![0] Facts₀.bcast_S100000_S100000x8_0 (m ((c : Thread nD τ).loc main_arg2))) Facts₀.shapeCasts_S100000x8_S800000 := by
  have hw : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  unfold Pipeline.afterTail₀
  show StableHlo.after hostOps1 _ (Proc.devRef .tc main_v6) = _
  after_results
  rw [hw]
  rfl

/-! ## The run -/

/-- Every weakly fair execution ends with the three results at the decoder's functions of the arrays the region found (laid
    out with point and neighbour as one row index) and the repeated batch numbers, and the arguments as they were. -/
theorem run : θ_run defs (onTc (τ := τ) (main (F := Ideal))) ⟨m, fun _ => 0, ρ⟩ fun r => ∀ c : Dev nD,
      r.2.mem ((c.tc : Thread nD τ).loc main_v3) = shapeCast S800000x3 (arrPoint m c) Facts₀.shapeCasts_S100000x8x3_S800000x3
      ∧ r.2.mem ((c.tc : Thread nD τ).loc main_v4) = shapeCast S800000x64 (arrFeature m c) Facts₀.shapeCasts_S100000x8x64_S800000x64
      ∧ r.2.mem ((c.tc : Thread nD τ).loc main_v6) = shapeCast S800000 (broadcastInDim S100000x8 ![0] Facts₀.bcast_S100000_S100000x8_0 (m ((c : Thread nD τ).loc main_arg2))) Facts₀.shapeCasts_S100000x8_S800000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      ((h c).2 main_v3 (Pipeline.mem_restRefs_of main_v3 (by decide) (by decide))).trans (tail_v3 m c),
      ((h c).2 main_v4 (Pipeline.mem_restRefs_of main_v4 (by decide) (by decide))).trans (tail_v4 m c),
      ((h c).2 main_v6 (Pipeline.mem_restRefs_of main_v6 (by decide) (by decide))).trans (tail_v6 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.Results

end
-- ==== Proof.RefValue.lean ====
/-
  The reference program computes the decoder's functions.

  The reference decodes the first 32 features of every point into 24 numbers and reshapes the [100000, 24] array to
  [800000, 3]: row `8n + k`, column `d` is column `3k + d` of point `n`'s row, the relative coordinate `d` of neighbour `k`.
  It repeats every point's anchor and its other 128 features eight times, adds half the relative coordinates to the
  anchors, and feeds the concatenated row — 3 relative coordinates, then 128 features — through a two-layer perceptron
  with rectifiers whose first layer is ONE product with a [131, 96] matrix.  A sum over 131 terms is the sum of its first 3
  terms plus the sum of its last 128, so that product is the product of the coordinates with the matrix's first 3 rows plus
  the product of the features with its last 128 rows.  Both results are therefore the decoder's functions of the arguments,
  laid out with the (point, neighbour) pair as one row index.
-/
import proofs.«132020_j45389214384422_1_alg».proof.Proof.Gen.ReferenceIdeal.Read
import proofs.«132020_j45389214384422_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Decoder

variable (x0 : FVec Ideal S100000x3 .f32) (x1 : FVec Ideal S100000x160 .f32) (x3 : FVec Ideal S32x24 .f32) (x4 : FVec Ideal S24 .f32)
  (x5 : FVec Ideal S131x96 .f32) (x6 : FVec Ideal S96 .f32) (x7 : FVec Ideal S96x64 .f32) (x8 : FVec Ideal S64 .f32)

/-! ## The decoded coordinates, reshaped: row `8n + k`, column `d` is `rel n (3k + d)` -/

theorem v6_apply (n : Fin 100000) (k : Fin 8) (d : Fin 3) (R : Fin 800000) (hR : R.val = 8 * n.val + k.val) :
    val_main_v6 (F := Ideal) x1 x3 x4 (ix2 R d) = rel x1 x3 x4 n (col k d) := by
  have hk : k.val < 8 := k.isLt
  have hd : d.val < 3 := d.isLt
  have hi : idx_main_v6 (ix2 R d) = ix2 n (col k d) := by
    funext a
    apply Fin.ext
    match a with
    | ⟨0, _⟩ => show (R.val * 3 + d.val) / 24 = n.val; omega
    | ⟨1, _⟩ => show (R.val * 3 + d.val) % 24 = 3 * k.val + d.val; omega
  rw [val_main_v6_apply, hi, val_main_v5_apply, val_main_v2_apply, val_main_v4_apply, val_main_v3_apply]
  unfold rel
  show (_ : EReal) + _ = _ + _
  refine congrArg₂ (· + ·) (Finset.sum_congr rfl fun s _ => ?_) (congrArg x4 ?_)
  · rw [val_main_v0_apply]
    refine congrArg₂ (· * ·) (congrArg x1 ?_) (congrArg x3 ?_)
    · funext a; apply Fin.ext
      match a with
      | ⟨0, _⟩ => rfl
      | ⟨1, _⟩ => rfl
    · funext a; apply Fin.ext
      match a with
      | ⟨0, _⟩ => rfl
      | ⟨1, _⟩ => rfl
  · funext a; apply Fin.ext
    match a with
    | ⟨0, _⟩ => rfl

/-! ## The generated coordinates -/

/-- The neighbours' coordinates as a [100000, 8, 3] array. -/
def pointArr : FVec Ideal ⟨3, ![100000, 8, 3]⟩ .f32 := fun i => newPoint x0 x1 x3 x4 (i 0) (i 1) (i 2)

theorem v26_eq (h : (⟨3, ![100000, 8, 3]⟩ : Shape).ShapeCasts S800000x3) :
    val_main_v26 (F := Ideal) x0 x1 x3 x4 = shapeCast S800000x3 (pointArr x0 x1 x3 x4) h := by
  funext i
  obtain ⟨R, d, rfl⟩ : ∃ (R : Fin 800000) (d : Fin 3), i = ix2 R d := ⟨i 0, i 1, eq_ix2 i⟩
  have hR : R.val < 800000 := R.isLt
  have hd : d.val < 3 := d.isLt
  refine Eq.trans ?_ (shapeCast_apply (pointArr x0 x1 x3 x4) h (ix2 R d) (ix3 (⟨R.val / 8, by omega⟩ : Fin 100000) (⟨R.val % 8, by omega⟩ : Fin 8) d)
    (by rw [Shape.rowMajor_val_three, Shape.rowMajor_val_two]; show (R.val / 8 * 8 + R.val % 8) * 3 + d.val = R.val * 3 + d.val; omega)).symm
  rw [val_main_v26_apply, val_main_v23_apply, val_main_v22_apply, val_main_v25_apply, val_main_v24_apply, val_main_cst_apply,
    v6_apply x1 x3 x4 ⟨R.val / 8, by omega⟩ ⟨R.val % 8, by omega⟩ d R (by show R.val = 8 * (R.val / 8) + R.val % 8; omega)]
  show x0 _ + _ * _ = newPoint x0 x1 x3 x4 _ _ _
  unfold newPoint
  refine congrArg₂ (· + ·) (congrArg x0 ?_) rfl
  funext a; apply Fin.ext
  match a with
  | ⟨0, _⟩ => show (R.val * 3 + d.val) / 24 = R.val / 8; omega
  | ⟨1, _⟩ => show (R.val * 3 + d.val) % 3 = d.val; omega

/-! ## The concatenated row: three coordinates, then the point's 128 other features -/

theorem v11_left (n : Fin 100000) (k : Fin 8) (d : Fin 3) (R : Fin 800000) (hR : R.val = 8 * n.val + k.val)
    (e : Fin 131) (he : e.val = d.val) :
    val_main_v11 (F := Ideal) x1 x3 x4 (ix2 R e) = rel x1 x3 x4 n (col k d) := by
  unfold val_main_v11
  refine (concatenate_pair_apply_left (t := S800000x131) (s₁ := S800000x3) (s₂ := S800000x128) (1 : Fin 2) _ _ _ (ix2 R e) rfl (ix2 R d) ?_).trans (v6_apply x1 x3 x4 n k d R hR)
  intro b
  match b with
  | ⟨0, _⟩ => rfl
  | ⟨1, _⟩ => exact he.symm

theorem v11_right (n : Fin 100000) (R : Fin 800000) (hn : n.val = R.val / 8) (s : Fin 128) (e : Fin 131) (he : e.val = 3 + s.val) :
    val_main_v11 (F := Ideal) x1 x3 x4 (ix2 R e) = x1 (ix2 n (hi s)) := by
  have hs : s.val < 128 := s.isLt
  unfold val_main_v11
  refine (concatenate_pair_apply_right (t := S800000x131) (s₁ := S800000x3) (s₂ := S800000x128) (1 : Fin 2) _ _ _ (ix2 R e) rfl rfl (ix2 R s) ?_ ?_).trans ?_
  · intro b hb
    match b with
    | ⟨0, _⟩ => rfl
    | ⟨1, _⟩ => exact absurd rfl hb
  · show s.val + 3 = e.val; omega
  · rw [val_main_v10_apply, val_main_v9_apply, val_main_v1_apply]
    refine congrArg x1 ?_
    funext a; apply Fin.ext
    match a with
    | ⟨0, _⟩ => show (R.val * 128 + s.val) / 1024 = n.val; omega
    | ⟨1, _⟩ => show 32 + (R.val * 128 + s.val) % 128 = 32 + s.val; omega

/-! ## The first layer: the 131-term product splits along the two row bands of its matrix -/

theorem v12_apply (hA : S131x96.Slices ![0, 0] ⟨2, ![3, 96]⟩) (hB : S131x96.Slices ![3, 0] ⟨2, ![128, 96]⟩)
    (n : Fin 100000) (k : Fin 8) (R : Fin 800000) (hR : R.val = 8 * n.val + k.val) (q : Fin 96) :
    val_main_v12 (F := Ideal) x1 x3 x4 x5 (ix2 R q)
      = (∑ d : Fin 3, rel x1 x3 x4 n (col k d) * extractStridedSlice ⟨2, ![3, 96]⟩ ![0, 0] x5 hA (ix2 d q))
        + ∑ s : Fin 128, x1 (ix2 n (hi s)) * extractStridedSlice ⟨2, ![128, 96]⟩ ![3, 0] x5 hB (ix2 s q) := by
  have hk : k.val < 8 := k.isLt
  rw [val_main_v12_apply]
  refine (sum_131 _).trans (congrArg₂ (· + ·) (Finset.sum_congr rfl fun d _ => ?_) (Finset.sum_congr rfl fun s _ => ?_))
  · have hd : d.val < 3 := d.isLt
    rw [slice2_axis0_apply 0 x5 hA d q (⟨d.val, by omega⟩ : Fin 131) (Nat.zero_add _).symm]
    refine congrArg₂ (· * ·) ?_ (congrArg x5 ?_)
    · refine Eq.trans (congrArg (val_main_v11 (F := Ideal) x1 x3 x4) ?_) (v11_left x1 x3 x4 n k d R hR (⟨d.val, by omega⟩ : Fin 131) rfl)
      funext a; apply Fin.ext
      match a with
      | ⟨0, _⟩ => rfl
      | ⟨1, _⟩ => rfl
    · funext a; apply Fin.ext
      match a with
      | ⟨0, _⟩ => rfl
      | ⟨1, _⟩ => rfl
  · have hs : s.val < 128 := s.isLt
    rw [slice2_axis0_apply 3 x5 hB s q (⟨3 + s.val, by omega⟩ : Fin 131) rfl]
    refine congrArg₂ (· * ·) ?_ (congrArg x5 ?_)
    · refine Eq.trans (congrArg (val_main_v11 (F := Ideal) x1 x3 x4) ?_) (v11_right x1 x3 x4 n R (by omega) s (⟨3 + s.val, by omega⟩ : Fin 131) rfl)
      funext a; apply Fin.ext
      match a with
      | ⟨0, _⟩ => rfl
      | ⟨1, _⟩ => rfl
    · funext a; apply Fin.ext
      match a with
      | ⟨0, _⟩ => rfl
      | ⟨1, _⟩ => rfl

/-! ## The generated features -/

/-- The neighbours' features as a [100000, 8, 64] array, the first layer's matrix given by its two row bands. -/
def featureArr (WA : FVec Ideal ⟨2, ![3, 96]⟩ .f32) (WB : FVec Ideal ⟨2, ![128, 96]⟩ .f32) : FVec Ideal ⟨3, ![100000, 8, 64]⟩ .f32 :=
  fun i => newFeature x1 x3 x4 WA WB x6 x7 x8 (i 0) (i 1) (i 2)

theorem v21_eq (hA : S131x96.Slices ![0, 0] ⟨2, ![3, 96]⟩) (hB : S131x96.Slices ![3, 0] ⟨2, ![128, 96]⟩)
    (h : (⟨3, ![100000, 8, 64]⟩ : Shape).ShapeCasts S800000x64) :
    val_main_v21 (F := Ideal) x1 x3 x4 x5 x6 x7 x8
      = shapeCast S800000x64 (featureArr x1 x3 x4 x6 x7 x8 (extractStridedSlice ⟨2, ![3, 96]⟩ ![0, 0] x5 hA) (extractStridedSlice ⟨2, ![128, 96]⟩ ![3, 0] x5 hB)) h := by
  funext i
  obtain ⟨R, o, rfl⟩ : ∃ (R : Fin 800000) (o : Fin 64), i = ix2 R o := ⟨i 0, i 1, eq_ix2 i⟩
  have hR : R.val < 800000 := R.isLt
  have ho : o.val < 64 := o.isLt
  refine Eq.trans ?_ (shapeCast_apply (featureArr x1 x3 x4 x6 x7 x8 _ _) h (ix2 R o) (ix3 (⟨R.val / 8, by omega⟩ : Fin 100000) (⟨R.val % 8, by omega⟩ : Fin 8) o)
    (by rw [Shape.rowMajor_val_three, Shape.rowMajor_val_two]; show (R.val / 8 * 8 + R.val % 8) * 64 + o.val = R.val * 64 + o.val; omega)).symm
  rw [val_main_v21_apply, val_main_v20_apply, val_main_v17_apply, val_main_v19_apply, val_main_v18_apply, val_main_call1_v0_apply,
    val_main_call1_cst_apply]
  show max ((_ : EReal) + _) _ = newFeature x1 x3 x4 _ _ x6 x7 x8 _ _ _
  unfold newFeature hiddenUnit
  refine congrArg₂ max (congrArg₂ (· + ·) (Finset.sum_congr rfl fun q _ => ?_) (congrArg x8 ?_)) rfl
  · have hl : lidx_main_v17 (ix2 R o) q = ix2 R q := by
      funext a; apply Fin.ext
      match a with
      | ⟨0, _⟩ => rfl
      | ⟨1, _⟩ => rfl
    rw [hl, val_main_v16_apply, val_main_v15_apply,
      v12_apply x1 x3 x4 x5 hA hB ⟨R.val / 8, by omega⟩ ⟨R.val % 8, by omega⟩ R (by show R.val = 8 * (R.val / 8) + R.val % 8; omega) q,
      val_main_v14_apply, val_main_v13_apply, val_main_call0_v0_apply, val_main_call0_cst_apply]
    refine congrArg₂ (· * ·) (congrArg₂ max (congrArg₂ (· + ·) rfl (congrArg x6 ?_)) rfl) (congrArg x7 ?_)
    · funext a; apply Fin.ext
      match a with
      | ⟨0, _⟩ => rfl
    · funext a; apply Fin.ext
      match a with
      | ⟨0, _⟩ => rfl
      | ⟨1, _⟩ => rfl
  · funext a; apply Fin.ext
    match a with
    | ⟨0, _⟩ => rfl

end Cert.ReferenceIdeal.RefValue

end
-- ==== Proof.lean ====
/-
  The certificate of the neighbourhood decoder kernel against its reference: both compute, over the extended reals, the same
  functions of the arguments.

  For every point the programs decode its first 32 features into the relative coordinates of 8 neighbours, place neighbour k
  at the anchor plus half its relative coordinates, and give it the features produced by a two-layer perceptron with
  rectifiers from its 3 relative coordinates and the point's other 128 features; the third result repeats the point's batch
  number 8 times.  The kernel works on blocks of 2000 points and multiplies the coordinates and the features by the first
  3 and the last 128 rows of the first layer's matrix separately; the reference multiplies the concatenated 131 numbers by the
  whole matrix.  A sum over 131 terms is its first 3 terms plus its last 128, in any additive commutative monoid, so the two
  agree on all extended reals and the precondition is never opened.

  The modules: `Spec` (the decoder's functions and the splitting of the sum), `LibPlainDot` (a matrix product's contraction
  sum as a plain sum), `KernelBlock` (what one grid point leaves in its two output blocks), `KernelArrays` (the 50 blocks cover
  the result arrays), `KernelRun` (the kernel program's run with its results named), `RefValue` (the reference computes the
  decoder's functions).  Here: the three frames, the idealization (nothing was rewritten) and the equality of the results.
-/
import proofs.«132020_j45389214384422_1_alg».proof.Defs
import proofs.«132020_j45389214384422_1_alg».proof.Proof.Gen.Kernel
import proofs.«132020_j45389214384422_1_alg».proof.Proof.Gen.Kernel.Skeleton
import proofs.«132020_j45389214384422_1_alg».proof.Proof.Gen.Kernel.Launch
import proofs.«132020_j45389214384422_1_alg».proof.Proof.Gen.Kernel.Points
import proofs.«132020_j45389214384422_1_alg».proof.Proof.Gen.Kernel.Frame
import proofs.«132020_j45389214384422_1_alg».proof.Proof.Gen.KernelIdeal
import proofs.«132020_j45389214384422_1_alg».proof.Proof.Gen.KernelIdeal.Skeleton
import proofs.«132020_j45389214384422_1_alg».proof.Proof.Gen.KernelIdeal.Launch
import proofs.«132020_j45389214384422_1_alg».proof.Proof.Gen.KernelIdeal.Points
import proofs.«132020_j45389214384422_1_alg».proof.Proof.Gen.KernelIdeal.Frame
import proofs.«132020_j45389214384422_1_alg».proof.Proof.Gen.ReferenceIdeal
import proofs.«132020_j45389214384422_1_alg».proof.Proof.Gen.Pre_finite_inputs
import proofs.«132020_j45389214384422_1_alg».proof.Proof.Gen.ReferenceIdeal.Run
import proofs.«132020_j45389214384422_1_alg».proof.Proof.Gen.ReferenceIdeal.Read
import proofs.«132020_j45389214384422_1_alg».proof.Proof.KernelRun
import proofs.«132020_j45389214384422_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Nothing was rewritten when the kernel was idealized. -/
theorem preserves : Cert.preserves_Kernel_KernelIdeal := trivial

open Cert.KernelIdeal.Gen Cert.KernelIdeal.Arrays Cert.KernelIdeal.Results Cert.ReferenceIdeal.RefValue in
/-- From memories that agree on the arguments both programs end with the decoder's functions of the arguments, in the layout
    with point and neighbour as one row index, and with the same repeated batch numbers. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono (fun _ h c => ?_) (Cert.ReferenceIdeal.Value.run (F := Ideal) m' ρ')
  obtain ⟨h26, h21, h8, hargs⟩ := h c
  obtain ⟨a0, a1, a2, a3, a4, a5, a6, a7, a8⟩ := hagree c
  refine ⟨h26.trans ?_, h21.trans ?_, h8.trans ?_, hargs⟩
  · rw [Cert.ReferenceIdeal.Read.val_main_v26_eq, v26_eq _ _ _ _ Cert.KernelIdeal.Facts₀.shapeCasts_S100000x8x3_S800000x3, a0, a1, a3, a4]
    have e : pointArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = arrPoint m c := by
      unfold pointArr arrPoint
      rw [← V_main_arg0 m c, ← V_main_arg1 m c, ← V_main_arg3 m c, ← V_main_arg4 m c]
    rw [e]
  · rw [Cert.ReferenceIdeal.Read.val_main_v21_eq, v21_eq _ _ _ _ _ _ _ Cert.KernelIdeal.Facts₀.slices_S131x96_S3x96_0_0 Cert.KernelIdeal.Facts₀.slices_S131x96_S128x96_3_0
      Cert.KernelIdeal.Facts₀.shapeCasts_S100000x8x64_S800000x64, a1, a3, a4, a5, a6, a7, a8]
    have e : featureArr (m ((c.tc : Thread Cert.KernelIdeal.nD Cert.KernelIdeal.τ).loc Cert.KernelIdeal.main_arg1)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        (extractStridedSlice Cert.KernelIdeal.S3x96 ![0, 0] (m ((c.tc : Thread Cert.KernelIdeal.nD Cert.KernelIdeal.τ).loc Cert.KernelIdeal.main_arg5)) Cert.KernelIdeal.Facts₀.slices_S131x96_S3x96_0_0)
        (extractStridedSlice Cert.KernelIdeal.S128x96 ![3, 0] (m ((c.tc : Thread Cert.KernelIdeal.nD Cert.KernelIdeal.τ).loc Cert.KernelIdeal.main_arg5)) Cert.KernelIdeal.Facts₀.slices_S131x96_S128x96_3_0)
        = arrFeature m c := by
      unfold featureArr arrFeature
      rw [← V_main_arg1 m c, ← V_main_arg3 m c, ← V_main_arg4 m c, ← V_main_arg6 m c, ← V_main_arg7 m c, ← V_main_arg8 m c, ← aWA_eq m c, ← aWB_eq m c]
    exact congrArg (fun z => shapeCast Cert.KernelIdeal.S800000x64 z Cert.KernelIdeal.Facts₀.shapeCasts_S100000x8x64_S800000x64) e
  · rw [a2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
